-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S2x800000 : Shape := ⟨2, ![2, 800000]⟩
abbrev S128x192 : Shape := ⟨2, ![128, 192]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x192 : S_.BroadcastsInDim S128x192 (![] : Fin 0 → Fin S128x192.rank)
  reducesTo_S128x192_S_d0_1 : S128x192.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x192 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x192 .f32 := Host.absf main_arg5
  let main_cst_6 : FVec F S_ .f32 := constant S_ .f32 0x7F800000#32
  let main_v20 : FVec F S128x192 .f32 := broadcastInDim S128x192 ![] bcast_S_S128x192 main_cst_6
  let main_v21 : IVec S128x192 1 := cmpf .olt main_v19 main_v20
  let main_c_7 : IVec S_ 1 := constantI S_ 1 1#1
  let main_v22 : IVec S_ 1 := (fun x v => Host.reduce IntOp.andi x v reducesTo_S128x192_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S800000x32 .f32) (main_arg2 : FVec F S800000x32 .f32) (main_arg3 : FVec F S50000x128 .f32) (main_arg4 : IVec S2x800000 32) (main_arg5 : FVec F S128x192 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S800000x32 .f32 := Host.absf main_arg2
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S800000x32 : Shape := ⟨2, ![800000, 32]⟩
abbrev S2x800000 : Shape := ⟨2, ![2, 800000]⟩
abbrev S128x192 : Shape := ⟨2, ![128, 192]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x64 : Shape := ⟨2, ![800000, 64]⟩
abbrev S128x64 : Shape := ⟨2, ![128, 64]⟩
abbrev S64x128 : Shape := ⟨2, ![64, 128]⟩
abbrev S1x128 : Shape := ⟨2, ![1, 128]⟩
abbrev S8000x128 : Shape := ⟨2, ![8000, 128]⟩
abbrev S8000x64 : Shape := ⟨2, ![8000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 40
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S800000x32, .f32⟩
  | .hbm, ⟨3, _⟩ => ⟨S50000x128, .f32⟩
  | .hbm, ⟨4, _⟩ => ⟨S2x800000, .i32⟩
  | .hbm, ⟨5, _⟩ => ⟨S128x192, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x64, .f32⟩
  | .hbm, ⟨25, _⟩ => ⟨S128x128, .f32⟩
  | .hbm, ⟨26, _⟩ => ⟨S128x128, .f32⟩
  | .hbm, ⟨27, _⟩ => ⟨S128x64, .f32⟩
  | .hbm, ⟨28, _⟩ => ⟨S64x128, .f32⟩
  | .hbm, ⟨29, _⟩ => ⟨S1x128, .f32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S128x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x64, .f32⟩
  | .local _ .vmem, ⟨3, _⟩ => ⟨S8000x64, .f32⟩
  | .local _ .vmem, ⟨4, _⟩ => ⟨S128x128, .f32⟩
  | .local _ .vmem, ⟨5, _⟩ => ⟨S64x128, .f32⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x32_S800000x64_d1 : Shape.Concatenates [S800000x32, S800000x32] S800000x64 1
  slices_S128x192_S128x128_0_0 : S128x192.Slices ![0, 0] S128x128
  transposes_S128x128_S128x128_1_0 : S128x128.Transposes [1, 0] S128x128
  slices_S128x192_S128x64_0_128 : S128x192.Slices ![0, 128] S128x64
  transposes_S128x64_S64x128_1_0 : S128x64.Transposes [1, 0] S64x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x64_S64x128_S8000x128_1_0_0_1_n_n_wf : DotDims.WF S8000x64 S64x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S2x800000 : Shape := ⟨2, ![2, 800000]⟩
abbrev S128x192 : Shape := ⟨2, ![128, 192]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S192x128 : Shape := ⟨2, ![192, 128]⟩
abbrev S1x128 : Shape := ⟨2, ![1, 128]⟩
abbrev S850000x128 : Shape := ⟨2, ![850000, 128]⟩
abbrev S50000 : Shape := ⟨1, ![50000]⟩
abbrev S850000 : Shape := ⟨1, ![850000]⟩
abbrev S850000x1 : Shape := ⟨2, ![850000, 1]⟩
abbrev S50000x1 : Shape := ⟨2, ![50000, 1]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S800000x32, .f32⟩
  | .hbm, ⟨3, _⟩ => ⟨S50000x128, .f32⟩
  | .hbm, ⟨4, _⟩ => ⟨S2x800000, .i32⟩
  | .hbm, ⟨5, _⟩ => ⟨S128x192, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x192, .f32⟩
  | .hbm, ⟨25, _⟩ => ⟨S192x128, .f32⟩
  | .hbm, ⟨26, _⟩ => ⟨S800000x128, .f32⟩
  | .hbm, ⟨27, _⟩ => ⟨S1x128, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S800000x128, .f32⟩
  | .hbm, ⟨32, _⟩ => ⟨S800000x128, .f32⟩
  | .hbm, ⟨33, _⟩ => ⟨S850000x128, .f32⟩
  | .hbm, ⟨34, _⟩ => ⟨S50000, .i32⟩
  | .hbm, ⟨35, _⟩ => ⟨S850000, .i32⟩
  | .hbm, ⟨36, _⟩ => ⟨S_, .f32⟩
  | .hbm, ⟨37, _⟩ => ⟨S50000x128, .f32⟩
  | .hbm, ⟨38, _⟩ => ⟨S850000x1, .i32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000, .f32⟩
  | .hbm, ⟨47, _⟩ => ⟨S50000x1, .f32⟩
  | .hbm, ⟨48, _⟩ => ⟨S_, .f32⟩
  | .hbm, ⟨49, _⟩ => ⟨S50000x1, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000, .f32⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x1, .f32⟩
  | .hbm, ⟨64, _⟩ => ⟨S50000x1, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x32_S800000x32_S800000x192_d1 : Shape.Concatenates [S800000x128, S800000x32, S800000x32] S800000x192 1
  transposes_S128x192_S192x128_1_0 : S128x192.Transposes [1, 0] S192x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  concatenates_S800000x128_S50000x128_S850000x128_d0 : Shape.Concatenates [S800000x128, S50000x128] S850000x128 0
  concatenates_S800000_S50000_S850000_d0 : Shape.Concatenates [S800000, S50000] S850000 0
  bcast_S_S50000x128 : S_.BroadcastsInDim S50000x128 (![] : Fin 0 → Fin S50000x128.rank)
  bcast_S850000_S850000x1_0 : S850000.BroadcastsInDim S850000x1 (![0] : Fin 1 → Fin S850000x1.rank)
  transposes_S128x128_S128x128_1_0 : S128x128.Transposes [1, 0] S128x128
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, as plain functions on the extended reals.

  A message for edge e and feature j is the rectified affine form of the edge's 192 inputs; the kernel takes the
  192-term sum in two parts (128 gathered node features, 64 edge features).  A node's output is the layer norm, scaled,
  shifted and rectified, of an affine form of the node's aggregated row.
-/
import Idealize.ShloMosaic.PureOps.Ideal
import Idealize.ShloMosaic.Lib.ValueIdx

noncomputable section

namespace Cert.Spec

open Idealize.ShloMosaic Idealize.ShloMosaic.ValueIdx

/-- A float array of R rows and C columns, read at the extended reals. -/
abbrev Mat (R C : Nat) := (⟨2, ![R, C]⟩ : Shape).Idx → EReal

/-- The float words the programs share: 0, 128 and the variance offset. -/
def zero32 : EReal := Ideal.ofBits .f32 0x00000000#32
def c128 : EReal := Ideal.ofBits .f32 0x43000000#32
def lnEps : EReal := Ideal.ofBits .f32 0x3727C5AC#32

/-- The mean of a row of 128 entries: their sum divided by 128. -/
def mean (y : Fin 128 → EReal) : EReal := Ideal.div (∑ k, y k) c128

/-- Layer norm of the row y at entry j, scaled by g, shifted by b, then rectified:
    max ((y j − μ) · rsqrt(σ² + ε) · g j + b j, 0) with μ the row's mean and σ² the mean of the squared deviations. -/
def lnRelu (y g b : Fin 128 → EReal) (j : Fin 128) : EReal :=
  max ((y j - mean y) * Ideal.rsqrt (mean (fun k => (y k - mean y) * (y k - mean y)) + lnEps) * g j + b j) zero32

/-- Edge e's message at feature j, the 192-term sum taken as 128 + 64 terms. -/
def msgSplit {E : Nat} (G : Mat E 128) (EC : Mat E 64) (WF : Mat 128 128) (WE : Mat 64 128) (B : Mat 1 128)
    (e : Fin E) (j : Fin 128) : EReal :=
  max ((∑ k : Fin 128, G (ix2 e k) * WF (ix2 k j)) + (∑ k : Fin 64, EC (ix2 e k) * WE (ix2 k j)) + B (ix2 0 j)) zero32

/-- Node n's output at feature j from the two summands X0, X1 of its aggregated row. -/
def nodeOut {R : Nat} (X0 X1 : Mat R 128) (WT : Mat 128 128) (B G Be : Mat 1 128) (n : Fin R) (j : Fin 128) : EReal :=
  lnRelu (fun j' => (∑ k : Fin 128, (X0 (ix2 n k) + X1 (ix2 n k)) * WT (ix2 k j')) + B (ix2 0 j'))
    (fun j' => G (ix2 0 j')) (fun j' => Be (ix2 0 j')) j

end Cert.Spec

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Region0Value.lean ====
/-
  What the first kernel leaves in its output array: every entry of the message array is the rectified affine form of
  the edge's gathered node features and edge features, the contraction taken in two parts.
-/
import proofs.«120088_j32727650796180_1_alg».proof.Proof.Gen.KernelIdeal.Frame
import proofs.«120088_j32727650796180_1_alg».proof.Proof.Spec
import proofs.«120088_j32727650796180_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's two contractions are plain rows-by-columns products: 8000×128 by 128×128 and 8000×64 by 64×128. -/
private theorem dotNode_eq : dot_S8000x128_S128x128_S8000x128_1_0_0_1_n_n = DotDims.plain 8000 128 128 := rfl
private theorem dotEdge_eq : dot_S8000x64_S64x128_S8000x128_1_0_0_1_n_n = DotDims.plain 8000 64 128 := rfl

/-- The body's arithmetic at entry (p, q) of its block. -/
private theorem pay_apply (x0 : Vec Ideal S8000x128 .f32) (x1 : Vec Ideal S8000x64 .f32) (x2 : Vec Ideal S128x128 .f32)
    (x3 : Vec Ideal S64x128 .f32) (x4 : Vec Ideal S1x128 .f32) (p : Fin 8000) (q : Fin 128) :
    k0_pay1 (F := Ideal) x0 x1 x2 x3 x4 (ix2 p q)
      = max ((∑ k : Fin 128, x0 (ix2 p k) * x2 (ix2 k q)) + (∑ k : Fin 64, x1 (ix2 p k) * x3 (ix2 k q)) + x4 (ix2 0 q))
          Cert.Spec.zero32 := by
  unfold k0_pay1
  simp only [shapeCast_self]
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · rw [dotNode_eq]
      exact Cert.LibPlainDot.matmul_plain_zero none _ _ (ix2 p q)
    · rw [dotEdge_eq]
      exact Cert.LibPlainDot.matmul_plain_zero none _ _ (ix2 p q)
  · exact broadcastTo_1b_ab_apply x4 broadcasts_S1x128_S8000x128 p q

/-- The zero offsets, as a constant function. -/
private theorem hz : (![0, 0] : Fin 2 → Nat) = fun _ => 0 := funext fun a => by fin_cases a <;> rfl

/-- The block index maps over the grid: the edge-row windows sit at block row t, the weight and bias windows at the origin. -/
private theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- A block whose entries are those of the five arrays at edge row e holds, at (p, q), the message of edge e at feature q. -/
private theorem block_msg {E : Nat} (G : Cert.Spec.Mat E 128) (EC : Cert.Spec.Mat E 64) (WF : Cert.Spec.Mat 128 128)
    (WE : Cert.Spec.Mat 64 128) (B : Cert.Spec.Mat 1 128)
    (x0 : Vec Ideal S8000x128 .f32) (x1 : Vec Ideal S8000x64 .f32) (x2 : Vec Ideal S128x128 .f32)
    (x3 : Vec Ideal S64x128 .f32) (x4 : Vec Ideal S1x128 .f32) (p : Fin 8000) (q : Fin 128) (e : Fin E)
    (h0 : ∀ k : Fin 128, x0 (ix2 p k) = G (ix2 e k)) (h1 : ∀ k : Fin 64, x1 (ix2 p k) = EC (ix2 e k))
    (h2 : ∀ k : Fin 128, x2 (ix2 k q) = WF (ix2 k q)) (h3 : ∀ k : Fin 64, x3 (ix2 k q) = WE (ix2 k q))
    (h4 : x4 (ix2 0 q) = B (ix2 0 q)) :
    k0_pay1 (F := Ideal) x0 x1 x2 x3 x4 (ix2 p q) = Cert.Spec.msgSplit G EC WF WE B e q := by
  rw [pay_apply]
  unfold Cert.Spec.msgSplit
  simp only [h0, h1, h2, h3, h4]

/-- Row p of the gathered-feature block at point t is row 8000·t + p of the array. -/
private theorem iblk_node (c : Dev nD) (t : Fin cfg0.N) (p : Fin 8000) (k : Fin 128) (e : Fin 800000) (he : e.val = 8000 * t.val + p.val) :
    (iblk0 V c 0 t : Vec Ideal S8000x128 .f32) (ix2 p k) = (V c main_v10 : S800000x128.Idx → EReal) (ix2 e k) := by
  obtain ⟨a0, a1, -⟩ := idx_facts t
  unfold iblk0
  rw [View.read_apply]
  show V c main_v10 _ = V c main_v10 _
  congr 1
  funext a
  apply Fin.ext
  match a with
  | ⟨0, _⟩ => show win0_0.index t 0 * 8000 + 1 * p.val = e.val; rw [a0, he]; omega
  | ⟨1, _⟩ => show win0_0.index t 1 * 128 + 1 * k.val = k.val; rw [a1]; omega

/-- Row p of the edge-feature block at point t is row 8000·t + p of the array. -/
private theorem iblk_edge (c : Dev nD) (t : Fin cfg0.N) (p : Fin 8000) (k : Fin 64) (e : Fin 800000) (he : e.val = 8000 * t.val + p.val) :
    (iblk0 V c 1 t : Vec Ideal S8000x64 .f32) (ix2 p k) = (V c main_v11 : S800000x64.Idx → EReal) (ix2 e k) := by
  obtain ⟨-, -, a0, a1, -⟩ := idx_facts t
  unfold iblk0
  rw [View.read_apply]
  show V c main_v11 _ = V c main_v11 _
  congr 1
  funext a
  apply Fin.ext
  match a with
  | ⟨0, _⟩ => show win0_1.index t 0 * 8000 + 1 * p.val = e.val; rw [a0, he]; omega
  | ⟨1, _⟩ => show win0_1.index t 1 * 64 + 1 * k.val = k.val; rw [a1]; omega

/-- The node-weight block is the whole array at every point. -/
private theorem iblk_wnode (c : Dev nD) (t : Fin cfg0.N) (k : Fin 128) (q : Fin 128) :
    (iblk0 V c 2 t : Vec Ideal S128x128 .f32) (ix2 k q) = (V c main_v13 : S128x128.Idx → EReal) (ix2 k q) := by
  obtain ⟨-, -, -, -, a0, a1, -⟩ := idx_facts t
  unfold iblk0
  rw [View.read_apply]
  show V c main_v13 _ = V c main_v13 _
  congr 1
  funext a
  apply Fin.ext
  match a with
  | ⟨0, _⟩ => show win0_2.index t 0 * 128 + 1 * k.val = k.val; rw [a0]; omega
  | ⟨1, _⟩ => show win0_2.index t 1 * 128 + 1 * q.val = q.val; rw [a1]; omega

/-- The edge-weight block is the whole array at every point. -/
private theorem iblk_wedge (c : Dev nD) (t : Fin cfg0.N) (k : Fin 64) (q : Fin 128) :
    (iblk0 V c 3 t : Vec Ideal S64x128 .f32) (ix2 k q) = (V c main_v15 : S64x128.Idx → EReal) (ix2 k q) := by
  obtain ⟨-, -, -, -, -, -, a0, a1, -⟩ := idx_facts t
  unfold iblk0
  rw [View.read_apply]
  show V c main_v15 _ = V c main_v15 _
  congr 1
  funext a
  apply Fin.ext
  match a with
  | ⟨0, _⟩ => show win0_3.index t 0 * 64 + 1 * k.val = k.val; rw [a0]; omega
  | ⟨1, _⟩ => show win0_3.index t 1 * 128 + 1 * q.val = q.val; rw [a1]; omega

/-- The bias block is the whole one-row array at every point. -/
private theorem iblk_bias (c : Dev nD) (t : Fin cfg0.N) (q : Fin 128) :
    (iblk0 V c 4 t : Vec Ideal S1x128 .f32) (ix2 (0 : Fin 1) q) = (V c main_v16 : S1x128.Idx → EReal) (ix2 (0 : Fin 1) q) := by
  obtain ⟨-, -, -, -, -, -, -, -, a0, a1, -⟩ := idx_facts t
  unfold iblk0
  rw [View.read_apply]
  show V c main_v16 _ = V c main_v16 _
  congr 1
  funext a
  apply Fin.ext
  match a with
  | ⟨0, _⟩ => show win0_4.index t 0 * 1 + 1 * (0 : Fin 1).val = (0 : Fin 1).val; rw [a0]; rfl
  | ⟨1, _⟩ => show win0_4.index t 1 * 128 + 1 * q.val = q.val; rw [a1]; omega

/-- What point t writes back is block t of the message array. -/
private theorem flushed_eq (c : Dev nD) (t : Fin cfg0.N) :
    (dat0 V c).flushed 5 t = ((cfg0.win 5).blk t).view.read (Elt Ideal)
      (fun i => Cert.Spec.msgSplit (V c main_v10) (V c main_v11) (V c main_v13) (V c main_v15) (V c main_v16) (i 0) (i 1)) := by
  show (cfg0.win 5).cut (grid0.coords t) ((dat0 V c).after 5 t) = _
  rw [after0_5]
  unfold out0_5
  rw [View.canon_unit_zero hz]
  simp only [View.ld_unit_zero (S := S8000x128) hz, View.ld_unit_zero (S := S8000x64) hz, View.ld_unit_zero (S := S128x128) hz,
    View.ld_unit_zero (S := S64x128) hz, View.ld_unit_zero (S := S1x128) hz]
  funext j
  obtain ⟨p, q, rfl⟩ : ∃ (p : Fin 8000) (q : Fin 128), j = ix2 p q := ⟨j 0, j 1, eq_ix2 j⟩
  have hN : cfg0.N = 100 := N_0
  have ht : t.val < 100 := hN ▸ t.isLt
  have hp : p.val < 8000 := p.isLt
  obtain ⟨-, -, -, -, -, -, -, -, -, -, f0, f1⟩ := idx_facts t
  refine (block_msg (V c main_v10) (V c main_v11) (V c main_v13) (V c main_v15) (V c main_v16)
    (iblk0 V c 0 t) (iblk0 V c 1 t) (iblk0 V c 2 t) (iblk0 V c 3 t) (iblk0 V c 4 t) p q
    (⟨8000 * t.val + p.val, by omega⟩ : Fin 800000)
    (fun k => iblk_node V c t p k _ rfl) (fun k => iblk_edge V c t p k _ rfl)
    (fun k => iblk_wnode V c t k q) (fun k => iblk_wedge V c t k q) (iblk_bias V c t q)).trans ?_
  rw [View.read_apply]
  show Cert.Spec.msgSplit _ _ _ _ _ _ _ = Cert.Spec.msgSplit _ _ _ _ _ _ _
  congr 1
  · apply Fin.ext
    show 8000 * t.val + p.val = win0_5.index t 0 * 8000 + 1 * p.val
    rw [f0]; omega
  · apply Fin.ext
    show q.val = win0_5.index t 1 * 128 + 1 * q.val
    rw [f1]; omega

/-- An index of the message array lies in point t's block iff each coordinate lies in the block's range on its axis. -/
private theorem mem_blk (t : Fin cfg0.N) (i : S800000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v17).slice (win0_5.rect t)).set ↔ _
  rw [View.set_slice_whole, Rect.mem_set_unit]
  exact Iff.rfl

/-- Every entry of the message array is written: row r lies in the block of point r / 8000. -/
private theorem cover (i : S800000x128.Idx) :
    ∃ t : Fin cfg0.N, (cfg0.win 5).flush t = true ∧ i ∈ ((cfg0.win 5).blk t).view.set := by
  have hN : cfg0.N = 100 := N_0
  have hi0 : (i 0).val < 800000 := (i 0).isLt
  have hi1 : (i 1).val < 128 := (i 1).isLt
  let t : Fin cfg0.N := ⟨(i 0).val / 8000, by rw [hN]; omega⟩
  obtain ⟨-, -, -, -, -, -, -, -, -, -, f0, f1⟩ := idx_facts t
  have ht : t.val = (i 0).val / 8000 := rfl
  refine ⟨t, flush0_5 t, ?_⟩
  rw [mem_blk]
  intro a
  match a with
  | ⟨0, _⟩ =>
    show win0_5.index t (0 : Fin 2) * 8000 ≤ (i 0).val ∧ (i 0).val < win0_5.index t (0 : Fin 2) * 8000 + 8000
    rw [f0, ht]; omega
  | ⟨1, _⟩ =>
    show win0_5.index t (1 : Fin 2) * 128 ≤ (i 1).val ∧ (i 1).val < win0_5.index t (1 : Fin 2) * 128 + 128
    rw [f1]; omega

/-- After the first region the message array holds, at (e, j), the message of edge e at feature j computed from the
    arrays the region found. -/
theorem arr5 (c : Dev nD) :
    (dat0 V c).arrAt 5 cfg0.N = fun i => Cert.Spec.msgSplit (V c main_v10) (V c main_v11) (V c main_v13) (V c main_v15) (V c main_v16) (i 0) (i 1) :=
  (dat0 V c).arrAt_eq_of_cover 5
    (fun i => Cert.Spec.msgSplit (V c main_v10) (V c main_v11) (V c main_v13) (V c main_v15) (V c main_v16) (i 0) (i 1))
    (fun t _ => flushed_eq V c t) cover

end Cert.KernelIdeal.Region0

end
-- ==== Proof.Region1Value.lean ====
/-
  What the second kernel leaves in its output array: every row is the layer norm, scaled, shifted and rectified, of an
  affine form of the sum of the two input rows.
-/
import proofs.«120088_j32727650796180_1_alg».proof.Proof.Gen.KernelIdeal.Frame
import proofs.«120088_j32727650796180_1_alg».proof.Proof.Spec
import proofs.«120088_j32727650796180_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The product's dimension numbers are those of the plain rows-by-columns product. -/
private theorem dot_eq : dot_S5000x128_S128x128_S5000x128_1_0_0_1_n_n = DotDims.plain 5000 128 128 := rfl

/-- The affine form of the sum of the two input blocks: the rows the layer norm is taken of. -/
private def lin (x0 x1 : Vec Ideal S5000x128 .f32) (x2 : Vec Ideal S128x128 .f32) (x3 : Vec Ideal S1x128 .f32) : FVec Ideal S5000x128 .f32 :=
  addf (matmul dot_S5000x128_S128x128_S5000x128_1_0_0_1_n_n none
      (truncf .bf16 (addf (shapeCast S5000x128 x0 shapeCasts_S5000x128_S5000x128) x1) bitsLt_bf16_f32)
      (truncf .bf16 (shapeCast S128x128 x2 shapeCasts_S128x128_S128x128) bitsLt_bf16_f32)
      (constant S5000x128 .f32 0x00000000#32))
    (broadcastTo S5000x128 (shapeCast S1x128 x3 shapeCasts_S1x128_S1x128) broadcasts_S1x128_S5000x128)

private theorem lin_apply (x0 x1 : Vec Ideal S5000x128 .f32) (x2 : Vec Ideal S128x128 .f32) (x3 : Vec Ideal S1x128 .f32)
    (p : Fin 5000) (q : Fin 128) :
    lin x0 x1 x2 x3 (ix2 p q) = (∑ k : Fin 128, (x0 (ix2 p k) + x1 (ix2 p k)) * x2 (ix2 k q)) + x3 (ix2 0 q) := by
  unfold lin
  rw [shapeCast_self, shapeCast_self, shapeCast_self]
  refine congrArg₂ (· + ·) ?_ ?_
  · show FloatOps.matmul dot_S5000x128_S128x128_S5000x128_1_0_0_1_n_n none _ _ _ (ix2 p q) = _
    rw [dot_eq]
    exact Cert.LibPlainDot.matmul_plain_zero none _ _ (ix2 p q)
  · exact broadcastTo_1b_ab_apply x3 broadcasts_S1x128_S5000x128 p q

/-- The lane sum of a block of rows: at row p, the sum of the row's 128 entries. -/
private theorem rowSum_apply (v : FVec Ideal S5000x128 .f32) (p : Fin 5000) :
    multiReduction .add [1] S5000 v 0x00000000#32 reduces_S5000x128_S5000 (.inl rfl) rfl (ix1 p) = ∑ k : Fin 128, v (ix2 p k) := by
  refine (Ideal.multiReduction_add_single v 0x00000000#32 reduces_S5000x128_S5000 (.inl rfl) rfl (ix1 p)).trans ?_
  refine Finset.sum_congr rfl fun k _ => congrArg v (funext fun a => ?_)
  match a with
  | ⟨0, _⟩ => exact Fin.ext rfl
  | ⟨1, _⟩ => exact Fin.ext rfl

/-- A vector of 5000 entries laid as a column reads, at (p, ·), its entry p. -/
private theorem colCast_apply {α : Type} (u : S5000.Idx → α) (p : Fin 5000) (z : Fin 1) :
    shapeCast S5000x1 u shapeCasts_S5000_S5000x1 (ix2 p z) = u (ix1 p) :=
  shapeCast_apply u shapeCasts_S5000_S5000x1 (ix2 p z) (ix1 p) (by
    rw [Shape.rowMajor_val_one, Shape.rowMajor_val_two]
    show p.val = p.val * 1 + z.val
    omega)

/-- A column broadcast along the rows reads, at (p, q), the column's entry p. -/
private theorem colBroadcast_apply {α : Type} (w : S5000x1.Idx → α) (p : Fin 5000) (q : Fin 128) :
    broadcastTo S5000x128 w broadcasts_S5000x1_S5000x128 (ix2 p q) = w (ix2 p (0 : Fin 1)) := by
  refine broadcastTo_apply w broadcasts_S5000x1_S5000x128 (ix2 p q) (ix2 p (0 : Fin 1)) fun ax => ?_
  match ax with
  | ⟨0, _⟩ => rfl
  | ⟨1, _⟩ => rfl

/-- The reciprocal square root of a vector reads entry by entry. -/
private theorem rsqrt_apply {s : Shape} {φ : FTy} (v : FVec Ideal s φ) (i : s.Idx) : rsqrt v i = Ideal.rsqrt (v i) := rfl

/-- The column of row means: each row's sum divided by 128. -/
private def rowMean (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits (F := Ideal) .f32 0x43000000#32))

private theorem rowMean_apply (v : FVec Ideal S5000x128 .f32) (p : Fin 5000) (z : Fin 1) :
    rowMean v (ix2 p z) = Cert.Spec.mean (fun k => v (ix2 p k)) := by
  unfold rowMean Cert.Spec.mean Cert.Spec.c128
  show Ideal.div (shapeCast S5000x1 _ shapeCasts_S5000_S5000x1 (ix2 p z)) (Ideal.ofBits .f32 0x43000000#32) = _
  rw [colCast_apply, rowSum_apply]

/-- The layer norm of every row of y, scaled by the row g and shifted by the row b. -/
private def lnBody (y : FVec Ideal S5000x128 .f32) (g b : Vec Ideal S1x128 .f32) : FVec Ideal S5000x128 .f32 :=
  addf
    (mulf
      (mulf (subf y (broadcastTo S5000x128 (rowMean y) broadcasts_S5000x1_S5000x128))
        (broadcastTo S5000x128
          (rsqrt (addf
            (rowMean (mulf (subf y (broadcastTo S5000x128 (rowMean y) broadcasts_S5000x1_S5000x128))
              (subf y (broadcastTo S5000x128 (rowMean y) broadcasts_S5000x1_S5000x128))))
            (broadcast S5000x1 (Scalar.ofBits (F := Ideal) .f32 0x3727C5AC#32))))
          broadcasts_S5000x1_S5000x128))
      (broadcastTo S5000x128 (shapeCast S1x128 g shapeCasts_S1x128_S1x128) broadcasts_S1x128_S5000x128))
    (broadcastTo S5000x128 (shapeCast S1x128 b shapeCasts_S1x128_S1x128) broadcasts_S1x128_S5000x128)

/-- The kernel's chain is the layer norm of the affine rows. -/
private theorem pay2_eq (x0 x1 : Vec Ideal S5000x128 .f32) (x2 : Vec Ideal S128x128 .f32) (x3 x4 x5 : Vec Ideal S1x128 .f32) :
    k1_pay2 x0 x1 x2 x3 x4 x5 = lnBody (lin x0 x1 x2 x3) x4 x5 := rfl

private theorem lnBody_apply (y : FVec Ideal S5000x128 .f32) (g b : Vec Ideal S1x128 .f32) (p : Fin 5000) (q : Fin 128) :
    lnBody y g b (ix2 p q)
      = (y (ix2 p q) - Cert.Spec.mean (fun k => y (ix2 p k)))
          * Ideal.rsqrt (Cert.Spec.mean (fun k => (y (ix2 p k) - Cert.Spec.mean (fun k' => y (ix2 p k')))
              * (y (ix2 p k) - Cert.Spec.mean (fun k' => y (ix2 p k')))) + Cert.Spec.lnEps)
          * g (ix2 0 q) + b (ix2 0 q) := by
  unfold lnBody
  rw [shapeCast_self, shapeCast_self]
  simp only [addf_apply, mulf_apply, subf_apply, rsqrt_apply, broadcast_apply, colBroadcast_apply, broadcastTo_1b_ab_apply,
    rowMean_apply]
  rfl

/-- What the body stores at (p, q): the rectified layer norm of row p's affine form, at entry q. -/
private theorem payload_apply (x0 x1 : Vec Ideal S5000x128 .f32) (x2 : Vec Ideal S128x128 .f32) (x3 x4 x5 : Vec Ideal S1x128 .f32)
    (p : Fin 5000) (q : Fin 128) :
    k1_pay1 (k1_pay2 x0 x1 x2 x3 x4 x5) (k1_pay3 (F := Ideal)) (ix2 p q)
      = Cert.Spec.lnRelu (fun j' => (∑ k : Fin 128, (x0 (ix2 p k) + x1 (ix2 p k)) * x2 (ix2 k j')) + x3 (ix2 0 j'))
          (fun j' => x4 (ix2 0 j')) (fun j' => x5 (ix2 0 j')) q := by
  show max (k1_pay2 x0 x1 x2 x3 x4 x5 (ix2 p q)) (Ideal.ofBits .f32 0x00000000#32) = _
  rw [pay2_eq, lnBody_apply]
  simp only [lin_apply]
  rfl

/-- From the block's rows to the node: when row p of the two blocked inputs is row n of their arrays and the four
    unblocked inputs are their arrays, the stored value at (p, q) is node n's output at feature q. -/
private theorem node_of_block (X0 X1 : Cert.Spec.Mat 50000 128) (WT : Cert.Spec.Mat 128 128) (B G' Be : Cert.Spec.Mat 1 128)
    (x0 x1 : Vec Ideal S5000x128 .f32) (x2 : Vec Ideal S128x128 .f32) (x3 x4 x5 : Vec Ideal S1x128 .f32)
    (p : Fin 5000) (q : Fin 128) (n : Fin 50000)
    (h0 : ∀ k, x0 (ix2 p k) = X0 (ix2 n k)) (h1 : ∀ k, x1 (ix2 p k) = X1 (ix2 n k))
    (h2 : x2 = WT) (h3 : x3 = B) (h4 : x4 = G') (h5 : x5 = Be) :
    k1_pay1 (k1_pay2 x0 x1 x2 x3 x4 x5) (k1_pay3 (F := Ideal)) (ix2 p q) = Cert.Spec.nodeOut X0 X1 WT B G' Be n q := by
  subst h2 h3 h4 h5
  rw [payload_apply]
  unfold Cert.Spec.nodeOut
  simp only [h0, h1]

private theorem hz : (![0, 0] : Fin 2 → Nat) = fun _ => 0 := funext fun a => by fin_cases a <;> rfl

/-- The array the region leaves: node n's output at feature j, from the arrays the region found. -/
private abbrev G (c : Dev nD) : S50000x128.Idx → EReal := fun i =>
  Cert.Spec.nodeOut (V c main_v20) (V c main_arg3) (V c main_v21) (V c main_v22) (V c main_v23) (V c main_v24) (i 0) (i 1)

/-- The windows' index maps over the grid: the two row-blocked inputs and the output sit at block (t, 0), the weight and
    the three rows at block (0, 0). -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the first blocked input at point t is row 5000·t + p of its array. -/
private theorem iblk0_apply (c : Dev nD) (t : Fin cfg1.N) (p : Fin 5000) (k : Fin 128) (n : Fin 50000) (hn : n.val = t.val * 5000 + p.val) :
    (iblk1 V c 0 t : Vec Ideal S5000x128 .f32) (ix2 p k) = (V c main_v20 : S50000x128.Idx → EReal) (ix2 n k) := by
  obtain ⟨e0, e1, -⟩ := idx_facts t
  unfold iblk1
  rw [View.read_apply]
  show V c main_v20 _ = V c main_v20 _
  congr 1
  funext a
  apply Fin.ext
  match a with
  | ⟨0, _⟩ => show win1_0.index t (0 : Fin 2) * 5000 + 1 * p.val = n.val; omega
  | ⟨1, _⟩ => show win1_0.index t (1 : Fin 2) * 128 + 1 * k.val = k.val; omega

/-- Row p of the second blocked input at point t is row 5000·t + p of its array. -/
private theorem iblk1_apply (c : Dev nD) (t : Fin cfg1.N) (p : Fin 5000) (k : Fin 128) (n : Fin 50000) (hn : n.val = t.val * 5000 + p.val) :
    (iblk1 V c 1 t : Vec Ideal S5000x128 .f32) (ix2 p k) = (V c main_arg3 : S50000x128.Idx → EReal) (ix2 n k) := by
  obtain ⟨-, -, e0, e1, -⟩ := idx_facts t
  unfold iblk1
  rw [View.read_apply]
  show V c main_arg3 _ = V c main_arg3 _
  congr 1
  funext a
  apply Fin.ext
  match a with
  | ⟨0, _⟩ => show win1_1.index t (0 : Fin 2) * 5000 + 1 * p.val = n.val; omega
  | ⟨1, _⟩ => show win1_1.index t (1 : Fin 2) * 128 + 1 * k.val = k.val; omega

/-- The weight's block at every point is the whole weight. -/
private theorem iblk2_eq (c : Dev nD) (t : Fin cfg1.N) :
    (iblk1 V c 2 t : Vec Ideal S128x128 .f32) = (V c main_v21 : S128x128.Idx → EReal) := by
  obtain ⟨-, -, -, -, e0, e1, -⟩ := idx_facts t
  funext y
  unfold iblk1
  rw [View.read_apply]
  show V c main_v21 _ = V c main_v21 _
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's block at every point is the whole row. -/
private theorem iblk3_eq (c : Dev nD) (t : Fin cfg1.N) :
    (iblk1 V c 3 t : Vec Ideal S1x128 .f32) = (V c main_v22 : S1x128.Idx → EReal) := by
  obtain ⟨-, -, -, -, -, -, e0, e1, -⟩ := idx_facts t
  funext y
  unfold iblk1
  rw [View.read_apply]
  show V c main_v22 _ = V c main_v22 _
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The scale row's block at every point is the whole row. -/
private theorem iblk4_eq (c : Dev nD) (t : Fin cfg1.N) :
    (iblk1 V c 4 t : Vec Ideal S1x128 .f32) = (V c main_v23 : S1x128.Idx → EReal) := by
  obtain ⟨-, -, -, -, -, -, -, -, e0, e1, -⟩ := idx_facts t
  funext y
  unfold iblk1
  rw [View.read_apply]
  show V c main_v23 _ = V c main_v23 _
  congr 1
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The shift row's block at every point is the whole row. -/
private theorem iblk5_eq (c : Dev nD) (t : Fin cfg1.N) :
    (iblk1 V c 5 t : Vec Ideal S1x128 .f32) = (V c main_v24 : S1x128.Idx → EReal) := by
  obtain ⟨-, -, -, -, -, -, -, -, -, -, e0, e1, -⟩ := idx_facts t
  funext y
  unfold iblk1
  rw [View.read_apply]
  show V c main_v24 _ = V c main_v24 _
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- What point t writes back is block t of the array of node outputs. -/
private theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext j
  obtain ⟨-, -, -, -, -, -, -, -, -, -, -, -, e0, e1⟩ := idx_facts t
  have hj0 : (j 0).val < 5000 := (j 0).isLt
  have hj1 : (j 1).val < 128 := (j 1).isLt
  have ht : t.val < 10 := N_1 ▸ t.isLt
  have hx : (cfg1.win 6).xinj (grid1.coords t) j = ix2 (⟨(j 0).val, hj0⟩ : Fin 5000) (⟨(j 1).val, hj1⟩ : Fin 128) :=
    funext fun a => match a with | ⟨0, _⟩ => rfl | ⟨1, _⟩ => rfl
  have hemb : ((cfg1.win 6).blk t).view.emb j
      = ix2 (⟨t.val * 5000 + (j 0).val, by omega⟩ : Fin 50000) (⟨(j 1).val, hj1⟩ : Fin 128) := by
    funext a
    apply Fin.ext
    match a with
    | ⟨0, _⟩ => show win1_6.index t (0 : Fin 2) * 5000 + 1 * (j 0).val = t.val * 5000 + (j 0).val; omega
    | ⟨1, _⟩ => show win1_6.index t (1 : Fin 2) * 128 + 1 * (j 1).val = (j 1).val; omega
  refine (congrArg (k1_pay1 (k1_pay2 (iblk1 V c 0 t) (iblk1 V c 1 t) (iblk1 V c 2 t) (iblk1 V c 3 t) (iblk1 V c 4 t) (iblk1 V c 5 t))
    (k1_pay3 (F := Ideal))) hx).trans ?_
  refine (node_of_block (V c main_v20) (V c main_arg3) (V c main_v21) (V c main_v22) (V c main_v23) (V c main_v24)
    (iblk1 V c 0 t) (iblk1 V c 1 t) (iblk1 V c 2 t) (iblk1 V c 3 t) (iblk1 V c 4 t) (iblk1 V c 5 t)
    ⟨(j 0).val, hj0⟩ ⟨(j 1).val, hj1⟩ ⟨t.val * 5000 + (j 0).val, by omega⟩
    (fun k => iblk0_apply V c t _ k _ rfl) (fun k => iblk1_apply V c t _ k _ rfl)
    (iblk2_eq V c t) (iblk3_eq V c t) (iblk4_eq V c t) (iblk5_eq V c t)).trans ?_
  rw [View.read_apply]
  show _ = G V c (((cfg1.win 6).blk t).view.emb j)
  rw [hemb]

/-- An index of the array is in point t's block iff each coordinate is in the block's range on its axis. -/
private theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v25).slice (win1_6.rect t)).set ↔ _
  rw [View.set_slice_whole, Rect.mem_set_unit]
  exact Iff.rfl

/-- Every row of the array is in some point's block: row r in that of point r / 5000. -/
private theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- After the second region the result array holds, at (n, j), node n's output at feature j computed from the arrays the
    region found. -/
theorem arr6 (c : Dev nD) :
    (dat1 V c).arrAt 6 cfg1.N = fun i => Cert.Spec.nodeOut (V c main_v20) (V c main_arg3) (V c main_v21) (V c main_v22) (V c main_v23) (V c main_v24) (i 0) (i 1) :=
  (dat1 V c).arrAt_eq_of_cover 6 (G V c) (fun t _ => flushed_eq V c t) cover

end Cert.KernelIdeal.Region1

end
-- ==== Proof.KernelHost.lean ====
/-
  The arrays the two kernels find on entry, as functions of the program's arguments: the host operations before each
  launch, read back.  The first launch finds the gathered source rows, the edge features side by side, the two parts of
  the message weight transposed and the bias as a row; the second finds the messages summed into their destination
  rows, the boundary rows, the layer weight transposed and three rows.
-/
import proofs.«120088_j32727650796180_1_alg».proof.Proof.Gen.KernelIdeal.Frame
import proofs.«120088_j32727650796180_1_alg».proof.Proof.LibPlainDot
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.ShloMosaic.ValueIdx Idealize.SL.Sem Idealize.ShloMosaic.StableHlo

/-! ## The host terms -/

/-- The source-row indices as the gather reads them: row 0 of the edge list, a negative entry moved up by the node count,
    laid out as a column. -/
def srcCol (x4 : IVec S2x800000 32) : IVec S800000x1 32 :=
  let v1 : IVec S800000 32 := shapeCast _ (extractStridedSlice S1x800000 ![0, 0] x4 slices_S2x800000_S1x800000_0_0) shapeCasts_S1x800000_S800000
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The gathered source rows. -/
def gathered (x0 : FVec Ideal S50000x128 .f32) (x4 : IVec S2x800000 32) : FVec Ideal S800000x128 .f32 :=
  Host.gather gather_S50000x128_S800000x1_S800000x128_1_0_n_n_0_1_1128 x0 (srcCol x4)

/-- The two edge feature arrays side by side. -/
def edgeCat (a b : FVec Ideal S800000x32 .f32) : FVec Ideal S800000x64 .f32 :=
  concatenate S800000x64 1 [⟨S800000x32, a⟩, ⟨S800000x32, b⟩] concatenates_S800000x32_S800000x32_S800000x64_d1

/-- The node-feature part of the message weight, transposed. -/
def wFeatT (x5 : FVec Ideal S128x192 .f32) : FVec Ideal S128x128 .f32 :=
  transpose S128x128 [1, 0] (extractStridedSlice S128x128 ![0, 0] x5 slices_S128x192_S128x128_0_0) transposes_S128x128_S128x128_1_0

/-- The edge-feature part of the message weight, transposed. -/
def wEdgeT (x5 : FVec Ideal S128x192 .f32) : FVec Ideal S64x128 .f32 :=
  transpose S64x128 [1, 0] (extractStridedSlice S128x64 ![0, 128] x5 slices_S128x192_S128x64_0_128) transposes_S128x64_S64x128_1_0

/-- A vector of 128 entries as a one-row matrix. -/
def rowOf (v : FVec Ideal S128 .f32) : FVec Ideal S1x128 .f32 := shapeCast _ v shapeCasts_S128_S1x128

/-- The layer weight transposed. -/
def linT (x7 : FVec Ideal S128x128 .f32) : FVec Ideal S128x128 .f32 := transpose S128x128 [1, 0] x7 transposes_S128x128_S128x128_1_0

/-- The array of zeros the messages are summed into. -/
def zeros : FVec Ideal S50000x128 .f32 := broadcastInDim S50000x128 ![] bcast_S_S50000x128 (constant S_ .f32 0x00000000#32)

/-- The destination-row indices as the scatter reads them: row 1 of the edge list as a column. -/
def dstCol (x4 : IVec S2x800000 32) : IVec S800000x1 32 :=
  broadcastInDim S800000x1 ![0] bcast_S800000_S800000x1_0
    (shapeCast _ (extractStridedSlice S1x800000 ![1, 0] x4 slices_S2x800000_S1x800000_1_0) shapeCasts_S1x800000_S800000)

/-! ## The entry contents of the two regions -/

variable (m : (ℓ : Loc nD τ sig) → Buf (Elt Ideal) ℓ) (ρ : Dev nD → PrngReg)

theorem entry0_v10 (c : Dev nD) : V1 m ρ c main_v10 = gathered (m ((c.tc : Thread nD τ).loc main_arg0)) (m ((c.tc : Thread nD τ).loc main_arg4)) := by
  show StableHlo.after hostOps0 (W0 m ρ c) (Proc.devRef .tc main_v10) = _
  after_results
  rfl
theorem entry0_v11 (c : Dev nD) : V1 m ρ c main_v11 = edgeCat (m ((c.tc : Thread nD τ).loc main_arg1)) (m ((c.tc : Thread nD τ).loc main_arg2)) := by
  show StableHlo.after hostOps0 (W0 m ρ c) (Proc.devRef .tc main_v11) = _
  after_results
  rfl
theorem entry0_v13 (c : Dev nD) : V1 m ρ c main_v13 = wFeatT (m ((c.tc : Thread nD τ).loc main_arg5)) := by
  show StableHlo.after hostOps0 (W0 m ρ c) (Proc.devRef .tc main_v13) = _
  after_results
  rfl
theorem entry0_v15 (c : Dev nD) : V1 m ρ c main_v15 = wEdgeT (m ((c.tc : Thread nD τ).loc main_arg5)) := by
  show StableHlo.after hostOps0 (W0 m ρ c) (Proc.devRef .tc main_v15) = _
  after_results
  rfl
theorem entry0_v16 (c : Dev nD) : V1 m ρ c main_v16 = rowOf (m ((c.tc : Thread nD τ).loc main_arg6)) := by
  show StableHlo.after hostOps0 (W0 m ρ c) (Proc.devRef .tc main_v16) = _
  after_results
  rfl

/-! The first region writes only its output array, and no host operation before it writes an argument: between the
    launches an argument still holds what it was launched with, and the reshaped row 1 of the edge list what the
    operations before the first launch left there. -/

private theorem W2_arg3 (c : Dev nD) : W2 m ρ c (Proc.devRef .tc main_arg3) = m ((c.tc : Thread nD τ).loc main_arg3) := by
  refine (W2_of_ne m ρ c main_arg3 (by decide)).trans ?_
  show StableHlo.after hostOps0 (W0 m ρ c) (Proc.devRef .tc main_arg3) = _
  after_results
private theorem W2_arg7 (c : Dev nD) : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results
private theorem W2_arg8 (c : Dev nD) : W2 m ρ c (Proc.devRef .tc main_arg8) = m ((c.tc : Thread nD τ).loc main_arg8) := by
  refine (W2_of_ne m ρ c main_arg8 (by decide)).trans ?_
  show StableHlo.after hostOps0 (W0 m ρ c) (Proc.devRef .tc main_arg8) = _
  after_results
private theorem W2_arg9 (c : Dev nD) : W2 m ρ c (Proc.devRef .tc main_arg9) = m ((c.tc : Thread nD τ).loc main_arg9) := by
  refine (W2_of_ne m ρ c main_arg9 (by decide)).trans ?_
  show StableHlo.after hostOps0 (W0 m ρ c) (Proc.devRef .tc main_arg9) = _
  after_results
private theorem W2_arg10 (c : Dev nD) : W2 m ρ c (Proc.devRef .tc main_arg10) = m ((c.tc : Thread nD τ).loc main_arg10) := by
  refine (W2_of_ne m ρ c main_arg10 (by decide)).trans ?_
  show StableHlo.after hostOps0 (W0 m ρ c) (Proc.devRef .tc main_arg10) = _
  after_results
private theorem W2_v3 (c : Dev nD) : W2 m ρ c (Proc.devRef .tc main_v3)
    = (shapeCast _ (extractStridedSlice S1x800000 ![1, 0] (m ((c.tc : Thread nD τ).loc main_arg4)) slices_S2x800000_S1x800000_1_0) shapeCasts_S1x800000_S800000 : IVec S800000 32) := by
  refine (W2_of_ne m ρ c main_v3 (by decide)).trans ?_
  show StableHlo.after hostOps0 (W0 m ρ c) (Proc.devRef .tc main_v3) = _
  after_results
  rfl
private theorem W2_v17 (c : Dev nD) : W2 m ρ c (Proc.devRef .tc main_v17) = (dat0 (V1 m ρ) c).arrAt 5 cfg0.N := by
  show W2 m ρ c (Proc.devRef .tc (Pipeline.arrRef spec0 5)) = _
  exact W2_arr m ρ c 5

/-- The second region finds the messages (what the first region left in its output array) summed into their destination rows. -/
theorem entry1_v20 (c : Dev nD) :
    V3 m ρ c main_v20 = Host.scatterAdd scatter_S50000x128_S800000x1_S800000x128_1_0_0_1 zeros (dstCol (m ((c.tc : Thread nD τ).loc main_arg4)))
      ((dat0 (V1 m ρ) c).arrAt 5 cfg0.N) := by
  show StableHlo.after hostOps1 (W2 m ρ c) (Proc.devRef .tc main_v20) = _
  after_results
  rw [W2_v3, W2_v17]
  rfl
theorem entry1_arg3 (c : Dev nD) : V3 m ρ c main_arg3 = m ((c.tc : Thread nD τ).loc main_arg3) := by
  show StableHlo.after hostOps1 (W2 m ρ c) (Proc.devRef .tc main_arg3) = _
  after_results
  exact W2_arg3 m ρ c
theorem entry1_v21 (c : Dev nD) : V3 m ρ c main_v21 = linT (m ((c.tc : Thread nD τ).loc main_arg7)) := by
  show StableHlo.after hostOps1 (W2 m ρ c) (Proc.devRef .tc main_v21) = _
  after_results
  rw [W2_arg7]
  rfl
theorem entry1_v22 (c : Dev nD) : V3 m ρ c main_v22 = rowOf (m ((c.tc : Thread nD τ).loc main_arg8)) := by
  show StableHlo.after hostOps1 (W2 m ρ c) (Proc.devRef .tc main_v22) = _
  after_results
  rw [W2_arg8]
  rfl
theorem entry1_v23 (c : Dev nD) : V3 m ρ c main_v23 = rowOf (m ((c.tc : Thread nD τ).loc main_arg9)) := by
  show StableHlo.after hostOps1 (W2 m ρ c) (Proc.devRef .tc main_v23) = _
  after_results
  rw [W2_arg9]
  rfl
theorem entry1_v24 (c : Dev nD) : V3 m ρ c main_v24 = rowOf (m ((c.tc : Thread nD τ).loc main_arg10)) := by
  show StableHlo.after hostOps1 (W2 m ρ c) (Proc.devRef .tc main_v24) = _
  after_results
  rw [W2_arg10]
  rfl

/-! ## The host terms read at an index -/

theorem edgeCat_lo (a b : FVec Ideal S800000x32 .f32) (e : Fin 800000) (k : Fin 32) :
    edgeCat a b (ix2 e (⟨k.val, by have := k.isLt; omega⟩ : Fin 64)) = a (ix2 e k) := by
  unfold edgeCat
  exact concatenate_pair_apply_left (1 : Fin S800000x64.rank) a b concatenates_S800000x32_S800000x32_S800000x64_d1 _ rfl (ix2 e k)
    (fun ax => by match ax with | ⟨0, _⟩ => rfl | ⟨1, _⟩ => rfl)
theorem edgeCat_hi (a b : FVec Ideal S800000x32 .f32) (e : Fin 800000) (k : Fin 32) :
    edgeCat a b (ix2 e (⟨32 + k.val, by have := k.isLt; omega⟩ : Fin 64)) = b (ix2 e k) := by
  unfold edgeCat
  exact concatenate_pair_apply_right (1 : Fin S800000x64.rank) a b concatenates_S800000x32_S800000x32_S800000x64_d1 _ rfl rfl (ix2 e k)
    (fun ax hax => by match ax with | ⟨0, _⟩ => rfl | ⟨1, _⟩ => exact absurd rfl hax)
    (by show k.val + 32 = 32 + k.val; exact Nat.add_comm _ _)
theorem wFeatT_apply (x5 : FVec Ideal S128x192 .f32) (k j : Fin 128) :
    wFeatT x5 (ix2 k j) = x5 (ix2 j (⟨k.val, by have := k.isLt; omega⟩ : Fin 192)) := by
  unfold wFeatT
  refine (Cert.LibPlainDot.transpose2_apply _ transposes_S128x128_S128x128_1_0 k j).trans ?_
  exact slice2_axis1_apply 0 x5 slices_S128x192_S128x128_0_0 j k _ (Nat.zero_add _).symm
theorem wEdgeT_apply (x5 : FVec Ideal S128x192 .f32) (k : Fin 64) (j : Fin 128) :
    wEdgeT x5 (ix2 k j) = x5 (ix2 j (⟨128 + k.val, by have := k.isLt; omega⟩ : Fin 192)) := by
  unfold wEdgeT
  refine (Cert.LibPlainDot.transpose2_apply _ transposes_S128x64_S64x128_1_0 k j).trans ?_
  exact slice2_axis1_apply 128 x5 slices_S128x192_S128x64_0_128 j k _ rfl
theorem rowOf_apply (v : FVec Ideal S128 .f32) (j : Fin 128) : rowOf v (ix2 (0 : Fin 1) j) = v (ix1 j) := by
  unfold rowOf
  exact shapeCast_a_1a_apply v shapeCasts_S128_S1x128 0 j
theorem linT_apply (x7 : FVec Ideal S128x128 .f32) (k j : Fin 128) : linT x7 (ix2 k j) = x7 (ix2 j k) := by
  unfold linT
  exact Cert.LibPlainDot.transpose2_apply x7 transposes_S128x128_S128x128_1_0 k j
theorem zeros_apply (i : S50000x128.Idx) : zeros i = Ideal.ofBits .f32 0x00000000#32 := by
  unfold zeros
  exact (broadcastInDim_apply ![] bcast_S_S50000x128 _ i ix0 (fun ax => ax.elim0)).trans (constant_apply _ _)
theorem dstCol_apply (x4 : IVec S2x800000 32) (e : Fin 800000) : dstCol x4 (ix2 e (0 : Fin 1)) = x4 (ix2 (1 : Fin 2) e) := by
  unfold dstCol
  refine (broadcastInDim_apply ![0] bcast_S800000_S800000x1_0 _ (ix2 e (0 : Fin 1)) (ix1 e) (fun ax => by
    match ax with
    | ⟨0, _⟩ => show e.val = if (800000 : Nat) = 1 then 0 else e.val; rw [if_neg (by decide)])).trans ?_
  refine (shapeCast_apply _ shapeCasts_S1x800000_S800000 (ix1 e) (ix2 (0 : Fin 1) e) (by
    rw [Shape.rowMajor_val_two, Shape.rowMajor_val_one]
    show 0 * 800000 + e.val = e.val
    rw [Nat.zero_mul, Nat.zero_add])).trans ?_
  exact extractStridedSlice_apply ![1, 0] x4 slices_S2x800000_S1x800000_1_0 (ix2 (0 : Fin 1) e) (ix2 (1 : Fin 2) e) (fun ax => by
    match ax with
    | ⟨0, _⟩ => rfl
    | ⟨1, _⟩ => exact (Nat.zero_add _).symm)

end Cert.KernelIdeal.HostVals

end
-- ==== Proof.RefValue.lean ====
/-
  The reference program read at an index.  Its result at (n, j) is the layer norm, scaled, shifted and rectified, of the
  affine form of node n's aggregated row; the aggregated rows are a scatter-add of the messages followed by the boundary
  rows, indexed by the destinations followed by 0, 1, 2, …; a message is the rectified affine form of the 192 inputs of
  its edge, which are the gathered source row and the two edge feature rows side by side.
-/
import proofs.«120088_j32727650796180_1_alg».proof.Proof.Gen.ReferenceIdeal.Read
import proofs.«120088_j32727650796180_1_alg».proof.Proof.Spec
import proofs.«120088_j32727650796180_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S50000x128, .f32⟩ : BufTy).Contents (Elt Ideal)) (x1 x2 : (⟨S800000x32, .f32⟩ : BufTy).Contents (Elt Ideal)) (x3 : (⟨S50000x128, .f32⟩ : BufTy).Contents (Elt Ideal))
  (x4 : (⟨S2x800000, .i32⟩ : BufTy).Contents (Elt Ideal)) (x5 : (⟨S128x192, .f32⟩ : BufTy).Contents (Elt Ideal)) (x6 : (⟨S128, .f32⟩ : BufTy).Contents (Elt Ideal))
  (x7 : (⟨S128x128, .f32⟩ : BufTy).Contents (Elt Ideal)) (x8 x9 x10 : (⟨S128, .f32⟩ : BufTy).Contents (Elt Ideal))

/-! ## Index bookkeeping

The read lemmas address an operand through composed index functions.  At an index given by its coordinates every such
composite is again an index given by coordinates: a transpose swaps them, a row broadcast keeps the column, a column
broadcast keeps the row and lands in column 0, a contraction or a row sum replaces the column by the summation index. -/

private theorem lidx13_eq (e : Fin 800000) (j : Fin 128) (k : Fin 192) : lidx_main_v13 (ix2 e j) k = ix2 e k :=
  funext fun a => Fin.ext (by match a with | ⟨0, _⟩ => rfl | ⟨1, _⟩ => rfl)
private theorem ridx13_eq (e : Fin 800000) (j : Fin 128) (k : Fin 192) :
    idx_main_v12 (ridx_main_v13 (ix2 e j) k) = ix2 j k :=
  funext fun a => Fin.ext (by match a with | ⟨0, _⟩ => rfl | ⟨1, _⟩ => rfl)
private theorem bias15_eq (e : Fin 800000) (j : Fin 128) : idx_main_v14 (idx_main_v15 (ix2 e j)) = ix1 j :=
  funext fun a => Fin.ext (by match a with | ⟨0, _⟩ => rfl)

private theorem lidx25_eq (n : Fin 50000) (j k : Fin 128) : lidx_main_v25 (ix2 n j) k = ix2 n k :=
  funext fun a => Fin.ext (by match a with | ⟨0, _⟩ => rfl | ⟨1, _⟩ => rfl)
private theorem ridx25_eq (n : Fin 50000) (j k : Fin 128) : idx_main_v24 (ridx_main_v25 (ix2 n j) k) = ix2 j k :=
  funext fun a => Fin.ext (by match a with | ⟨0, _⟩ => rfl | ⟨1, _⟩ => rfl)
private theorem bias27_eq (n : Fin 50000) (j : Fin 128) : idx_main_v26 (idx_main_v27 (ix2 n j)) = ix1 j :=
  funext fun a => Fin.ext (by match a with | ⟨0, _⟩ => rfl)

private theorem sum29_eq (n : Fin 50000) (z : Fin 1) (k : Fin 128) : idx_main_v29 (idx_main_v30 (ix2 n z)) k = ix2 n k :=
  funext fun a => Fin.ext (by match a with | ⟨0, _⟩ => rfl | ⟨1, _⟩ => rfl)
private theorem sum36_eq (n : Fin 50000) (z : Fin 1) (k : Fin 128) : idx_main_v36 (idx_main_v37 (ix2 n z)) k = ix2 n k :=
  funext fun a => Fin.ext (by match a with | ⟨0, _⟩ => rfl | ⟨1, _⟩ => rfl)
private theorem col33_eq (n : Fin 50000) (j : Fin 128) : idx_main_v33 (ix2 n j) = ix2 n (0 : Fin 1) :=
  funext fun a => Fin.ext (by match a with | ⟨0, _⟩ => rfl | ⟨1, _⟩ => rfl)
private theorem col40_eq (n : Fin 50000) (j : Fin 128) : idx_main_v40 (ix2 n j) = ix2 n (0 : Fin 1) :=
  funext fun a => Fin.ext (by match a with | ⟨0, _⟩ => rfl | ⟨1, _⟩ => rfl)
private theorem col45_eq (n : Fin 50000) (j : Fin 128) : idx_main_v45 (ix2 n j) = ix2 n (0 : Fin 1) :=
  funext fun a => Fin.ext (by match a with | ⟨0, _⟩ => rfl | ⟨1, _⟩ => rfl)
private theorem scale48_eq (n : Fin 50000) (j : Fin 128) : idx_main_v47 (idx_main_v48 (ix2 n j)) = ix1 j :=
  funext fun a => Fin.ext (by match a with | ⟨0, _⟩ => rfl)
private theorem shift51_eq (n : Fin 50000) (j : Fin 128) : idx_main_v50 (idx_main_v51 (ix2 n j)) = ix1 j :=
  funext fun a => Fin.ext (by match a with | ⟨0, _⟩ => rfl)

/-! ## The affine row

Entry (n, j) of the affine form: the contraction of aggregated row n with row j of the weight (the reference transposes
the weight first, so the contraction runs along the weight's second axis), plus the bias at j. -/

private theorem lin_apply (n : Fin 50000) (j : Fin 128) :
    (val_main_v28 (F := Ideal) x0 x1 x2 x3 x4 x5 x6 x7 x8 (ix2 n j) : EReal)
      = (∑ k : Fin 128, (val_main_v23 (F := Ideal) x0 x1 x2 x3 x4 x5 x6 (ix2 n k) : EReal) * (x7 (ix2 j k) : EReal)) + (x8 (ix1 j) : EReal) := by
  rw [val_main_v28_apply, val_main_v25_apply, val_main_v27_apply, val_main_v26_apply, bias27_eq]
  simp only [val_main_v24_apply, lidx25_eq, ridx25_eq, Ideal.addf_def]

/-! ## Layer norm of a row

Everything after the affine form depends on row n of it only through its 128 entries y.  The mean is a column (one entry
per row): the row sum, started from the float word 0 (which is the real 0 and drops out), divided by 128. -/

private theorem mean_col (n : Fin 50000) (y : Fin 128 → EReal)
    (hy : ∀ j : Fin 128, (val_main_v28 (F := Ideal) x0 x1 x2 x3 x4 x5 x6 x7 x8 (ix2 n j) : EReal) = y j) :
    (val_main_v32 (F := Ideal) x0 x1 x2 x3 x4 x5 x6 x7 x8 (ix2 n (0 : Fin 1)) : EReal) = Cert.Spec.mean y := by
  rw [val_main_v32_apply, val_main_v30_apply, val_main_v29_apply, val_main_cst_1_apply, val_main_v31_apply,
    val_main_cst_2_apply]
  simp only [sum29_eq, hy, Ideal.hostDivf_def, Ideal.ofBits_def, Ideal.ofBits_zero_f32, zero_add, Cert.Spec.mean,
    Cert.Spec.c128]

/-- The centred entry y j − μ (the operand of the square). -/
private theorem centred34 (n : Fin 50000) (y : Fin 128 → EReal)
    (hy : ∀ j : Fin 128, (val_main_v28 (F := Ideal) x0 x1 x2 x3 x4 x5 x6 x7 x8 (ix2 n j) : EReal) = y j) (j : Fin 128) :
    (val_main_v34 (F := Ideal) x0 x1 x2 x3 x4 x5 x6 x7 x8 (ix2 n j) : EReal) = y j - Cert.Spec.mean y := by
  rw [val_main_v34_apply, val_main_v33_apply, col33_eq, mean_col x0 x1 x2 x3 x4 x5 x6 x7 x8 n y hy, hy, Ideal.subf_def]

/-- The squared centred entry (the summand of the variance). -/
private theorem sq35 (n : Fin 50000) (y : Fin 128 → EReal)
    (hy : ∀ j : Fin 128, (val_main_v28 (F := Ideal) x0 x1 x2 x3 x4 x5 x6 x7 x8 (ix2 n j) : EReal) = y j) (j : Fin 128) :
    (val_main_v35 (F := Ideal) x0 x1 x2 x3 x4 x5 x6 x7 x8 (ix2 n j) : EReal)
      = (y j - Cert.Spec.mean y) * (y j - Cert.Spec.mean y) := by
  rw [val_main_v35_apply, centred34 x0 x1 x2 x3 x4 x5 x6 x7 x8 n y hy, Ideal.mulf_def]

/-- The variance column: the mean of the squared centred entries. -/
private theorem var_col (n : Fin 50000) (y : Fin 128 → EReal)
    (hy : ∀ j : Fin 128, (val_main_v28 (F := Ideal) x0 x1 x2 x3 x4 x5 x6 x7 x8 (ix2 n j) : EReal) = y j) :
    (val_main_v39 (F := Ideal) x0 x1 x2 x3 x4 x5 x6 x7 x8 (ix2 n (0 : Fin 1)) : EReal)
      = Cert.Spec.mean (fun k => (y k - Cert.Spec.mean y) * (y k - Cert.Spec.mean y)) := by
  rw [val_main_v39_apply, val_main_v37_apply, val_main_v36_apply, val_main_cst_3_apply, val_main_v38_apply,
    val_main_cst_4_apply]
  simp only [sum36_eq, sq35 x0 x1 x2 x3 x4 x5 x6 x7 x8 n y hy, Ideal.hostDivf_def, Ideal.ofBits_def, Ideal.ofBits_zero_f32, zero_add,
    Cert.Spec.mean, Cert.Spec.c128]

/-- The reciprocal square root of the variance plus the offset, again a column. -/
private theorem rsqrt_col (n : Fin 50000) (y : Fin 128 → EReal)
    (hy : ∀ j : Fin 128, (val_main_v28 (F := Ideal) x0 x1 x2 x3 x4 x5 x6 x7 x8 (ix2 n j) : EReal) = y j) :
    (val_main_v44 (F := Ideal) x0 x1 x2 x3 x4 x5 x6 x7 x8 (ix2 n (0 : Fin 1)) : EReal)
      = Ideal.rsqrt (Cert.Spec.mean (fun k => (y k - Cert.Spec.mean y) * (y k - Cert.Spec.mean y)) + Cert.Spec.lnEps) := by
  rw [val_main_v44_apply, val_main_v43_apply, var_col x0 x1 x2 x3 x4 x5 x6 x7 x8 n y hy, val_main_v42_apply, val_main_cst_5_apply,
    Ideal.hostUnary_rsqrt_def, Ideal.addf_def, Ideal.ofBits_def, Cert.Spec.lnEps]

/-- The result from the row: centre (the same mean column, broadcast a second time), scale by the reciprocal square
    root, by the gain and shift by the offset, then rectify against the float word 0. -/
private theorem out_of_row (n : Fin 50000) (y : Fin 128 → EReal)
    (hy : ∀ j : Fin 128, (val_main_v28 (F := Ideal) x0 x1 x2 x3 x4 x5 x6 x7 x8 (ix2 n j) : EReal) = y j) (j : Fin 128) :
    (val_main_v53 (F := Ideal) x0 x1 x2 x3 x4 x5 x6 x7 x8 x9 x10 (ix2 n j) : EReal)
      = Cert.Spec.lnRelu y (fun j' => (x9 (ix1 j') : EReal)) (fun j' => (x10 (ix1 j') : EReal)) j := by
  rw [val_main_v53_apply, val_main_v52_apply, val_main_v49_apply, val_main_v46_apply, val_main_v41_apply,
    val_main_v40_apply, val_main_v45_apply, val_main_v48_apply, val_main_v47_apply, val_main_v51_apply,
    val_main_v50_apply, val_main_call1_v0_apply, val_main_call1_cst_apply, col40_eq, col45_eq, scale48_eq, shift51_eq,
    mean_col x0 x1 x2 x3 x4 x5 x6 x7 x8 n y hy, rsqrt_col x0 x1 x2 x3 x4 x5 x6 x7 x8 n y hy, hy]
  simp only [Ideal.maximumf_def, Ideal.addf_def, Ideal.mulf_def, Ideal.subf_def, Ideal.ofBits_def, Cert.Spec.lnRelu,
    Cert.Spec.zero32]

/-- The result at (n, j) from the aggregated rows. -/
theorem out_apply (n : Fin 50000) (j : Fin 128) :
    val_main_v53 (F := Ideal) x0 x1 x2 x3 x4 x5 x6 x7 x8 x9 x10 (ix2 n j)
      = Cert.Spec.lnRelu (fun j' => (∑ k : Fin 128, (val_main_v23 (F := Ideal) x0 x1 x2 x3 x4 x5 x6 (ix2 n k) : EReal) * (x7 (ix2 j' k) : EReal)) + (x8 (ix1 j') : EReal))
          (fun j' => (x9 (ix1 j') : EReal)) (fun j' => (x10 (ix1 j') : EReal)) j :=
  out_of_row x0 x1 x2 x3 x4 x5 x6 x7 x8 x9 x10 n _ (lin_apply x0 x1 x2 x3 x4 x5 x6 x7 x8 n) j

/-- A message at (e, j) from the 192 inputs of edge e. -/
theorem msg_apply (e : Fin 800000) (j : Fin 128) :
    (val_main_v17 (F := Ideal) x0 x1 x2 x4 x5 x6 (ix2 e j) : EReal)
      = max ((∑ k : Fin 192, (val_main_v11 (F := Ideal) x0 x1 x2 x4 (ix2 e k) : EReal) * (x5 (ix2 j k) : EReal)) + (x6 (ix1 j) : EReal)) Cert.Spec.zero32 := by
  rw [val_main_v17_apply, val_main_v16_apply, val_main_v13_apply, val_main_v15_apply, val_main_v14_apply, bias15_eq,
    val_main_call0_v0_apply, val_main_call0_cst_apply]
  simp only [val_main_v12_apply, lidx13_eq, ridx13_eq, Ideal.maximumf_def, Ideal.addf_def, Ideal.ofBits_def,
    Cert.Spec.zero32]

/-- The aggregated rows are the scatter-add, into zeros, of the stacked updates at the stacked indices. -/
theorem agg_eq :
    val_main_v23 (F := Ideal) x0 x1 x2 x3 x4 x5 x6
      = (Host.scatterAdd (F := Ideal) (φ := .f32) scatter_S50000x128_S850000x1_S850000x128_1_0_0_1 (val_main_v21 (F := Ideal)) (val_main_v22 (F := Ideal) x4)
          (val_main_v18 (F := Ideal) x0 x1 x2 x3 x4 x5 x6) : FVec Ideal S50000x128 .f32) := rfl

theorem zeros_apply (i : S50000x128.Idx) : val_main_v21 (F := Ideal) i = Ideal.ofBits .f32 0x00000000#32 := by
  rw [val_main_v21_apply, val_main_cst_apply, Ideal.ofBits_def]

end Cert.ReferenceIdeal.RefValue

end
-- ==== Proof.RefCat.lean ====
/-
  The reference program's concatenations read at an index: the 192 inputs of an edge are the gathered source row, the
  edge attributes and the edge time embedding side by side; the scatter's updates are the messages followed by the
  boundary rows, and its indices the destinations followed by 0, 1, 2, ….
-/
import proofs.«120088_j32727650796180_1_alg».proof.Proof.Gen.ReferenceIdeal.Read
import proofs.«120088_j32727650796180_1_alg».proof.Proof.Spec
import proofs.«120088_j32727650796180_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefCat

open Cert.ReferenceIdeal Cert.ReferenceIdeal.Gen Cert.ReferenceIdeal.Read
open Idealize.ShloMosaic Idealize.ShloMosaic.TcCoe Idealize.ShloMosaic.ValueIdx Idealize.SL.Sem

variable (x0 : (⟨S50000x128, .f32⟩ : BufTy).Contents (Elt Ideal)) (x1 x2 : (⟨S800000x32, .f32⟩ : BufTy).Contents (Elt Ideal)) (x3 : (⟨S50000x128, .f32⟩ : BufTy).Contents (Elt Ideal))
  (x4 : (⟨S2x800000, .i32⟩ : BufTy).Contents (Elt Ideal)) (x5 : (⟨S128x192, .f32⟩ : BufTy).Contents (Elt Ideal)) (x6 : (⟨S128, .f32⟩ : BufTy).Contents (Elt Ideal))
  (x7 : (⟨S128x128, .f32⟩ : BufTy).Contents (Elt Ideal)) (x8 x9 x10 : (⟨S128, .f32⟩ : BufTy).Contents (Elt Ideal))

/-- The 192 inputs of an edge: first the gathered source row … -/
theorem cat_feat (e : Fin 800000) (k : Fin 128) :
    val_main_v11 (F := Ideal) x0 x1 x2 x4 (ix2 e (⟨k.val, by have := k.isLt; omega⟩ : Fin 192)) = val_main_v10 (F := Ideal) x0 x4 (ix2 e k) := by
  unfold val_main_v11
  exact concatenate_apply_piece 1 [⟨S800000x128, val_main_v10 (F := Ideal) x0 x4⟩, ⟨S800000x32, x1⟩, ⟨S800000x32, x2⟩]
    concatenates_S800000x128_S800000x32_S800000x32_S800000x192_d1 _
    0 (by simp) S800000x128 (val_main_v10 (F := Ideal) x0 x4) rfl rfl 0 rfl (ix2 e k)
    (fun b hb => match b with
      | ⟨0, _⟩ => rfl
      | ⟨1, _⟩ => absurd rfl hb)
    (by show 0 + k.val = k.val; omega)
/-- … then the edge attributes … -/
theorem cat_attr (e : Fin 800000) (k : Fin 32) :
    val_main_v11 (F := Ideal) x0 x1 x2 x4 (ix2 e (⟨128 + k.val, by have := k.isLt; omega⟩ : Fin 192)) = x1 (ix2 e k) := by
  unfold val_main_v11
  exact concatenate_apply_piece 1 [⟨S800000x128, val_main_v10 (F := Ideal) x0 x4⟩, ⟨S800000x32, x1⟩, ⟨S800000x32, x2⟩]
    concatenates_S800000x128_S800000x32_S800000x32_S800000x192_d1 _
    1 (by simp) S800000x32 x1 rfl rfl 128 rfl (ix2 e k)
    (fun b hb => match b with
      | ⟨0, _⟩ => rfl
      | ⟨1, _⟩ => absurd rfl hb)
    (by show 128 + k.val = 128 + k.val; rfl)
/-- … then the edge time embedding. -/
theorem cat_time (e : Fin 800000) (k : Fin 32) :
    val_main_v11 (F := Ideal) x0 x1 x2 x4 (ix2 e (⟨160 + k.val, by have := k.isLt; omega⟩ : Fin 192)) = x2 (ix2 e k) := by
  unfold val_main_v11
  exact concatenate_apply_piece 1 [⟨S800000x128, val_main_v10 (F := Ideal) x0 x4⟩, ⟨S800000x32, x1⟩, ⟨S800000x32, x2⟩]
    concatenates_S800000x128_S800000x32_S800000x32_S800000x192_d1 _
    2 (by simp) S800000x32 x2 rfl rfl 160 rfl (ix2 e k)
    (fun b hb => match b with
      | ⟨0, _⟩ => rfl
      | ⟨1, _⟩ => absurd rfl hb)
    (by show 160 + k.val = 160 + k.val; rfl)

/-- The stacked updates: the messages on top … -/
theorem upd_top (e : Fin 800000) (q : Fin 128) :
    val_main_v18 (F := Ideal) x0 x1 x2 x3 x4 x5 x6 (ix2 (⟨e.val, by have := e.isLt; omega⟩ : Fin 850000) q) = val_main_v17 (F := Ideal) x0 x1 x2 x4 x5 x6 (ix2 e q) := by
  unfold val_main_v18
  exact concatenate_pair_apply_left 0 _ _ concatenates_S800000x128_S50000x128_S850000x128_d0 _ rfl (ix2 e q)
    (fun b => match b with
      | ⟨0, _⟩ => rfl
      | ⟨1, _⟩ => rfl)
/-- … the boundary rows below. -/
theorem upd_bot (n : Fin 50000) (q : Fin 128) :
    val_main_v18 (F := Ideal) x0 x1 x2 x3 x4 x5 x6 (ix2 (⟨800000 + n.val, by have := n.isLt; omega⟩ : Fin 850000) q) = x3 (ix2 n q) := by
  unfold val_main_v18
  exact concatenate_pair_apply_right 0 _ _ concatenates_S800000x128_S50000x128_S850000x128_d0 _ rfl rfl (ix2 n q)
    (fun b hb => match b with
      | ⟨0, _⟩ => absurd rfl hb
      | ⟨1, _⟩ => rfl)
    (by show n.val + 800000 = 800000 + n.val; omega)

/-- The stacked indices: the destinations on top … -/
theorem idx_top (e : Fin 800000) :
    val_main_v22 (F := Ideal) x4 (ix2 (⟨e.val, by have := e.isLt; omega⟩ : Fin 850000) (0 : Fin 1)) = x4 (ix2 (1 : Fin 2) e) := by
  rw [val_main_v22_apply]
  unfold val_main_v20
  refine (concatenate_pair_apply_left 0 _ _ concatenates_S800000_S50000_S850000_d0 _ rfl (ix1 e)
    (fun b => match b with
      | ⟨0, _⟩ => rfl)).trans ?_
  rw [val_main_v3_apply, val_main_v2_apply]
  congr 1
  funext a
  match a with
  | ⟨0, _⟩ => exact Fin.ext (by show 1 + 0 = 1; rfl)
  | ⟨1, _⟩ => exact Fin.ext (by have := e.isLt; show e.val % 800000 = e.val; omega)
/-- … 0, 1, 2, … below. -/
theorem idx_bot (n : Fin 50000) :
    val_main_v22 (F := Ideal) x4 (ix2 (⟨800000 + n.val, by have := n.isLt; omega⟩ : Fin 850000) (0 : Fin 1)) = BitVec.ofNat 32 n.val := by
  rw [val_main_v22_apply]
  unfold val_main_v20
  refine (concatenate_pair_apply_right 0 _ _ concatenates_S800000_S50000_S850000_d0 _ rfl rfl (ix1 n)
    (fun b hb => match b with
      | ⟨0, _⟩ => absurd rfl hb)
    (by show n.val + 800000 = 800000 + n.val; omega)).trans ?_
  rw [val_main_v19_apply]

end Cert.ReferenceIdeal.RefCat

end
-- ==== Proof.LibScatterRows.lean ====
/-
  A row scatter-add read at an index.

  For the dimension numbers of jax's segment_sum on a matrix — operand N × C, scatter indices M × 1, updates M × C, the
  update's second axis the window, the operand's first axis indexed — update (e, q) lands on operand (n, q) exactly when
  the e-th index, read as a signed number, is n; an index outside 0 ≤ · < N drops its row.  So at the extended reals the
  scatter-add at (n, q) is the operand there plus the sum over all rows e whose index is n of the update at (e, q).
-/
import Idealize.ShloMosaic.PureOps.Ideal
import Idealize.ShloMosaic.PureOps.Ideal.Laws
import Idealize.ShloMosaic.Lib.ValueIdx

noncomputable section

namespace Cert.LibScatterRows

open Idealize.ShloMosaic Idealize.ShloMosaic.ValueIdx

variable {N M C : Nat}

/-! ### The four coordinate facts, first for the dimension numbers written out -/

section Literal

variable (wf : ScatterDims.WF ⟨2, ![N, C]⟩ ⟨2, ![M, 1]⟩ ⟨2, ![M, C]⟩ [1] [0] [0] 1)

/-- On the indexed axis the window starts at the row's index, read signed: the start index of update (e, q) is read at
    scatter-indices position (e, 0). -/
private theorem lit_start_zero {w : Nat} (idx : IVec ⟨2, ![M, 1]⟩ w) (e : Fin M) (q : Fin C) :
    (ScatterDims.mk (s := ⟨2, ![N, C]⟩) (si := ⟨2, ![M, 1]⟩) (u := ⟨2, ![M, C]⟩) [1] [0] [0] 1 wf).start (ix2 e q) idx 0
      = (idx (ix2 e (0 : Fin 1))).toInt := by
  unfold ScatterDims.start
  rw [dif_pos (List.mem_singleton.2 rfl)]
  congr 2
  funext b
  match b with
  | ⟨0, _⟩ => rfl
  | ⟨1, _⟩ => rfl

/-- The second operand axis is not named by the index map: its window starts at 0. -/
private theorem lit_start_one {w : Nat} (idx : IVec ⟨2, ![M, 1]⟩ w) (j : Shape.Idx ⟨2, ![M, C]⟩) :
    (ScatterDims.mk (s := ⟨2, ![N, C]⟩) (si := ⟨2, ![M, 1]⟩) (u := ⟨2, ![M, C]⟩) [1] [0] [0] 1 wf).start j idx 1 = 0 := by
  unfold ScatterDims.start
  rw [dif_neg (fun h => absurd (congrArg Fin.val (List.mem_singleton.1 h)) Nat.one_ne_zero)]

/-- The first operand axis is an inserted window axis: window coordinate 0. -/
private theorem lit_window_zero (j : Shape.Idx ⟨2, ![M, C]⟩) :
    (ScatterDims.mk (s := ⟨2, ![N, C]⟩) (si := ⟨2, ![M, 1]⟩) (u := ⟨2, ![M, C]⟩) [1] [0] [0] 1 wf).window j 0 = 0 := rfl

/-- The second operand axis takes the update's window coordinate. -/
private theorem lit_window_one (e : Fin M) (q : Fin C) :
    (ScatterDims.mk (s := ⟨2, ![N, C]⟩) (si := ⟨2, ![M, 1]⟩) (u := ⟨2, ![M, C]⟩) [1] [0] [0] 1 wf).window (ix2 e q) 1 = q.val := rfl

end Literal

/-! ### The same for any dimension numbers with these four lists -/

private theorem start_zero (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) {w : Nat} (idx : IVec ⟨2, ![M, 1]⟩ w) (e : Fin M) (q : Fin C) :
    d.start (ix2 e q) idx 0 = (idx (ix2 e (0 : Fin 1))).toInt := by
  obtain ⟨uw, iw, sd, iv, wf⟩ := d
  simp only at huw hiw hsd hiv
  subst huw hiw hsd hiv
  exact lit_start_zero wf idx e q

private theorem start_one (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) {w : Nat} (idx : IVec ⟨2, ![M, 1]⟩ w) (j : Shape.Idx ⟨2, ![M, C]⟩) :
    d.start j idx 1 = 0 := by
  obtain ⟨uw, iw, sd, iv, wf⟩ := d
  simp only at huw hiw hsd hiv
  subst huw hiw hsd hiv
  exact lit_start_one wf idx j

private theorem window_zero (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) (j : Shape.Idx ⟨2, ![M, C]⟩) :
    d.window j 0 = 0 := by
  obtain ⟨uw, iw, sd, iv, wf⟩ := d
  simp only at huw hiw hsd hiv
  subst huw hiw hsd hiv
  exact lit_window_zero wf j

private theorem window_one (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) (e : Fin M) (q : Fin C) :
    d.window (ix2 e q) 1 = q.val := by
  obtain ⟨uw, iw, sd, iv, wf⟩ := d
  simp only at huw hiw hsd hiv
  subst huw hiw hsd hiv
  exact lit_window_one wf e q

/-- Where update (e, q) lands: on (n, q) when the e-th index reads n, nowhere when it reads outside the operand's rows. -/
theorem resultIdx_rows_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) {w : Nat} (idx : IVec ⟨2, ![M, 1]⟩ w) (e : Fin M) (q : Fin C) (n : Fin N) (q' : Fin C) :
    d.resultIdx? (ix2 e q) idx = some (ix2 n q') ↔ ((idx (ix2 e (0 : Fin 1))).toInt = (n.val : Int) ∧ q = q') := by
  have e0 := start_zero d huw hiw hsd hiv idx e q
  have e1 := start_one d huw hiw hsd hiv idx (ix2 e q)
  have w0 := window_zero d huw hiw hsd hiv (ix2 e q)
  have w1 := window_one d huw hiw hsd hiv e q
  unfold ScatterDims.resultIdx?
  constructor
  · intro h
    split at h
    · rename_i hc
      have hf := Option.some.inj h
      have h0 : (d.start (ix2 e q) idx 0 + (d.window (ix2 e q) 0 : Int)).toNat = n.val := congrArg Fin.val (congrFun hf 0)
      have h1 : (d.start (ix2 e q) idx 1 + (d.window (ix2 e q) 1 : Int)).toNat = q'.val := congrArg Fin.val (congrFun hf 1)
      have c0 := (hc 0).1
      rw [e0, w0] at h0 c0
      rw [e1, w1] at h1
      exact ⟨by omega, Fin.ext (by omega)⟩
    · exact absurd h (by simp)
  · rintro ⟨h1, rfl⟩
    have hcond : ∀ a : Fin 2, 0 ≤ d.start (ix2 e q) idx a + (d.window (ix2 e q) a : Int) ∧
        d.start (ix2 e q) idx a + (d.window (ix2 e q) a : Int) < ((Shape.size ⟨2, ![N, C]⟩ a : Nat) : Int) := by
      refine Fin.forall_fin_two.2 ⟨?_, ?_⟩
      · rw [e0, w0, h1]
        have := n.isLt
        refine ⟨by omega, ?_⟩
        show (n.val : Int) + ((0 : Nat) : Int) < ((N : Nat) : Int)
        omega
      · rw [e1, w1]
        have := q.isLt
        refine ⟨by omega, ?_⟩
        show (0 : Int) + ((q.val : Nat) : Int) < ((C : Nat) : Int)
        omega
    rw [dif_pos hcond]
    congr 1
    funext a
    match a with
    | ⟨0, _⟩ =>
      refine Fin.ext ?_
      show (d.start (ix2 e q) idx 0 + (d.window (ix2 e q) 0 : Int)).toNat = n.val
      rw [e0, w0, h1]; omega
    | ⟨1, _⟩ =>
      refine Fin.ext ?_
      show (d.start (ix2 e q) idx 1 + (d.window (ix2 e q) 1 : Int)).toNat = q.val
      rw [e1, w1]; omega

/-- The row scatter-add at (n, q): the operand there plus the updates of the rows indexed n. -/
theorem scatterAdd_rows_apply (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) {w : Nat} (x : FVec Ideal ⟨2, ![N, C]⟩ .f32) (idx : IVec ⟨2, ![M, 1]⟩ w)
    (upd : FVec Ideal ⟨2, ![M, C]⟩ .f32) (n : Fin N) (q : Fin C) :
    Host.scatterAdd d x idx upd (ix2 n q)
      = (x (ix2 n q) : EReal) + ∑ e : Fin M, if (idx (ix2 e (0 : Fin 1))).toInt = (n.val : Int) then (upd (ix2 e q) : EReal) else 0 := by
  show (x (ix2 n q) : EReal) + ∑ j ∈ Finset.univ.filter (fun j => d.resultIdx? j idx = some (ix2 n q)), (upd j : EReal) = _
  congr 1
  rw [Finset.sum_filter, sum_idx2]
  refine Finset.sum_congr rfl (fun e _ => ?_)
  simp only [resultIdx_rows_iff d huw hiw hsd hiv]
  by_cases h : (idx (ix2 e (0 : Fin 1))).toInt = (n.val : Int)
  · simp only [h, true_and]
    rw [Finset.sum_ite_eq' Finset.univ q (fun b => (upd (ix2 e b) : EReal))]
    simp only [Finset.mem_univ, if_true]
  · simp only [h, false_and, if_false, Finset.sum_const_zero]

end Cert.LibScatterRows

end
-- ==== Proof.Bridge.lean ====
/-
  The two programs compute the same array.

  Messages.  The reference contracts the 192 inputs of an edge — the gathered source row, the edge attributes and the
  time embedding side by side — with a row of the message weight; the kernel contracts the first 128 with the
  transposed left part of the weight and the other 64 with the transposed right part and adds the two.  A finite sum
  over 192 = 128 + 32 + 32 terms splits accordingly, so the messages agree.

  Aggregation.  The reference scatter-adds the messages followed by the boundary rows at the destinations followed by
  0, 1, 2, …; the sum over the 850000 stacked rows that land on node n is the sum over the edges with destination n plus
  the one boundary row n, so it is the kernel's scatter-add of the messages plus the boundary row, which the second
  kernel adds.

  After that both apply the same affine form, layer norm, scale, shift and rectification to each node's row.
  Only commutativity and associativity of sums of extended reals are used.
-/
import proofs.«120088_j32727650796180_1_alg».proof.Proof.Region0Value
import proofs.«120088_j32727650796180_1_alg».proof.Proof.Region1Value
import proofs.«120088_j32727650796180_1_alg».proof.Proof.KernelHost
import proofs.«120088_j32727650796180_1_alg».proof.Proof.RefValue
import proofs.«120088_j32727650796180_1_alg».proof.Proof.RefCat
import proofs.«120088_j32727650796180_1_alg».proof.Proof.LibScatterRows

set_option maxRecDepth 16384

noncomputable section

namespace Cert.Bridge

open Idealize.ShloMosaic Idealize.ShloMosaic.TcCoe Idealize.ShloMosaic.ValueIdx Idealize.SL.Sem
open Cert.KernelIdeal.HostVals
open Cert.ReferenceIdeal.Read (val_main_v0 val_main_v1 val_main_c val_main_c_0 val_main_v4 val_main_v5 val_main_v6 val_main_v7 val_main_v8
  val_main_v9 val_main_v10 val_main_v11 val_main_v17 val_main_v18 val_main_v21 val_main_v22 val_main_v23 val_main_v53)

/-! ## Finite sums split at a position -/

/-- A sum over a + b terms is the sum of the first a plus the sum of the last b. -/
theorem sum_split {M : Type} [AddCommMonoid M] (a b : Nat) (f : Fin (a + b) → M) :
    ∑ k, f k = (∑ k : Fin a, f ⟨k.val, by have := k.isLt; omega⟩) + ∑ k : Fin b, f ⟨a + k.val, by have := k.isLt; omega⟩ := by
  rw [Fin.sum_univ_add]; rfl

theorem sum_192 {M : Type} [AddCommMonoid M] (f : Fin 192 → M) :
    ∑ k, f k = (∑ k : Fin 128, f ⟨k.val, by have := k.isLt; omega⟩)
      + ((∑ k : Fin 32, f ⟨128 + k.val, by have := k.isLt; omega⟩) + ∑ k : Fin 32, f ⟨160 + k.val, by have := k.isLt; omega⟩) := by
  rw [sum_split 128 64 f, sum_split 32 32 (fun k : Fin (32 + 32) => f ⟨128 + k.val, by have := k.isLt; omega⟩)]
  refine congrArg _ (congrArg _ (Finset.sum_congr rfl fun k _ => congrArg f (Fin.ext ?_)))
  show 128 + (32 + k.val) = 160 + k.val
  omega

theorem sum_64 {M : Type} [AddCommMonoid M] (f : Fin 64 → M) :
    ∑ k, f k = (∑ k : Fin 32, f ⟨k.val, by have := k.isLt; omega⟩) + ∑ k : Fin 32, f ⟨32 + k.val, by have := k.isLt; omega⟩ :=
  sum_split 32 32 f

theorem sum_850000 {M : Type} [AddCommMonoid M] (f : Fin 850000 → M) :
    ∑ e, f e = (∑ e : Fin 800000, f ⟨e.val, by have := e.isLt; omega⟩) + ∑ n : Fin 50000, f ⟨800000 + n.val, by have := n.isLt; omega⟩ :=
  sum_split 800000 50000 f

/-- The word k < 50000 read as a signed 32-bit number is k. -/
theorem toInt_ofNat_small (k : Nat) (hk : k < 50000) : (BitVec.ofNat 32 k).toInt = (k : Int) := by
  have h1 : (BitVec.ofNat 32 k).toNat = k := by rw [BitVec.toNat_ofNat]; omega
  rw [BitVec.toInt_eq_toNat_of_lt (by rw [h1]; omega), h1]

/-- The node update depends on its three rows entry by entry. -/
theorem lnRelu_congr {y y' g g' b b' : Fin 128 → EReal} (hy : ∀ j, y j = y' j) (hg : ∀ j, g j = g' j) (hb : ∀ j, b j = b' j)
    (j : Fin 128) : Cert.Spec.lnRelu y g b j = Cert.Spec.lnRelu y' g' b' j := by
  rw [funext hy, funext hg, funext hb]

section Arrays

variable (a0 : FVec Ideal Cert.KernelIdeal.S50000x128 .f32) (a1 a2 : FVec Ideal Cert.KernelIdeal.S800000x32 .f32)
  (a3 : FVec Ideal Cert.KernelIdeal.S50000x128 .f32) (a4 : IVec Cert.KernelIdeal.S2x800000 32)
  (a5 : FVec Ideal Cert.KernelIdeal.S128x192 .f32) (a6 : FVec Ideal Cert.KernelIdeal.S128 .f32)
  (a7 : FVec Ideal Cert.KernelIdeal.S128x128 .f32) (a8 a9 a10 : FVec Ideal Cert.KernelIdeal.S128 .f32)

/-! ## The messages agree -/

/-- Both programs gather the same source rows: the same operations on the same arguments. -/
theorem gathered_eq : gathered a0 a4 = val_main_v10 (F := Ideal) a0 a4 := by
  unfold gathered srcCol val_main_v10 val_main_v9 val_main_v8 val_main_v7 val_main_v6 val_main_v5 val_main_v4 val_main_v1 val_main_v0 val_main_c val_main_c_0
  rfl

/-- The kernel's message array, as the first region leaves it. -/
abbrev kernelMsg : FVec Ideal Cert.KernelIdeal.S800000x128 .f32 :=
  fun i => Cert.Spec.msgSplit (gathered a0 a4) (edgeCat a1 a2) (wFeatT a5) (wEdgeT a5) (rowOf a6) (i 0) (i 1)

/-- Edge e's message at feature j is the same in both programs: the 192-term contraction split as 128 + 32 + 32. -/
theorem msg_eq (e : Fin 800000) (j : Fin 128) :
    Cert.Spec.msgSplit (gathered a0 a4) (edgeCat a1 a2) (wFeatT a5) (wEdgeT a5) (rowOf a6) e j
      = val_main_v17 (F := Ideal) a0 a1 a2 a4 a5 a6 (ix2 e j) := by
  rw [Cert.ReferenceIdeal.RefValue.msg_apply]
  unfold Cert.Spec.msgSplit
  rw [rowOf_apply, sum_192, sum_64]
  refine congrArg (fun t => max (t + _) _) ?_
  refine congrArg₂ (· + ·) ?_ (congrArg₂ (· + ·) ?_ ?_)
  · refine Finset.sum_congr rfl fun k _ => ?_
    rw [Cert.ReferenceIdeal.RefCat.cat_feat, wFeatT_apply, gathered_eq]
  · refine Finset.sum_congr rfl fun k _ => ?_
    rw [Cert.ReferenceIdeal.RefCat.cat_attr, edgeCat_lo, wEdgeT_apply]
  · refine Finset.sum_congr rfl fun k _ => ?_
    rw [Cert.ReferenceIdeal.RefCat.cat_time, edgeCat_hi, wEdgeT_apply]
    refine congrArg (fun t => _ * (a5 (ix2 j t) : EReal)) (Fin.ext ?_)
    show 128 + (32 + k.val) = 160 + k.val
    omega

/-! ## The aggregated rows agree -/

/-- Node n's aggregated row in the reference is the kernel's scatter-added messages plus boundary row n. -/
theorem agg_eq_add (n : Fin 50000) (q : Fin 128) :
    (val_main_v23 (F := Ideal) a0 a1 a2 a3 a4 a5 a6 (ix2 n q) : EReal)
      = (Host.scatterAdd (F := Ideal) (φ := .f32) Cert.KernelIdeal.scatter_S50000x128_S800000x1_S800000x128_1_0_0_1 zeros (dstCol a4)
          (kernelMsg a0 a1 a2 a4 a5 a6) (ix2 n q) : EReal) + (a3 (ix2 n q) : EReal) := by
  rw [Cert.ReferenceIdeal.RefValue.agg_eq]
  rw [Cert.LibScatterRows.scatterAdd_rows_apply _ rfl rfl rfl rfl, Cert.LibScatterRows.scatterAdd_rows_apply _ rfl rfl rfl rfl]
  rw [Cert.ReferenceIdeal.RefValue.zeros_apply, zeros_apply, Ideal.ofBits_zero_f32, zero_add, zero_add, sum_850000]
  refine congrArg₂ (· + ·) ?_ ?_
  · refine Finset.sum_congr rfl fun e _ => ?_
    rw [Cert.ReferenceIdeal.RefCat.idx_top, Cert.ReferenceIdeal.RefCat.upd_top, dstCol_apply, ← msg_eq]
  · have h : ∀ n' : Fin 50000,
        (if (val_main_v22 (F := Ideal) a4 (ix2 (⟨800000 + n'.val, by have := n'.isLt; omega⟩ : Fin 850000) (0 : Fin 1))).toInt = (n.val : Int)
          then (val_main_v18 (F := Ideal) a0 a1 a2 a3 a4 a5 a6 (ix2 (⟨800000 + n'.val, by have := n'.isLt; omega⟩ : Fin 850000) q) : EReal) else 0)
        = if n' = n then (a3 (ix2 n' q) : EReal) else 0 := fun n' => by
      rw [Cert.ReferenceIdeal.RefCat.idx_bot, Cert.ReferenceIdeal.RefCat.upd_bot, toInt_ofNat_small _ n'.isLt]
      refine if_congr ?_ rfl rfl
      rw [Fin.ext_iff]; exact Int.ofNat_inj
    rw [Finset.sum_congr rfl fun n' _ => h n', Finset.sum_ite_eq' Finset.univ n]
    simp only [Finset.mem_univ, if_true]

/-! ## The results agree -/

/-- Node n's output at feature j is the same in both programs. -/
theorem node_eq (n : Fin 50000) (j : Fin 128) :
    Cert.Spec.nodeOut (Host.scatterAdd (F := Ideal) (φ := .f32) Cert.KernelIdeal.scatter_S50000x128_S800000x1_S800000x128_1_0_0_1 zeros (dstCol a4)
        (kernelMsg a0 a1 a2 a4 a5 a6)) a3 (linT a7) (rowOf a8) (rowOf a9) (rowOf a10) n j
      = val_main_v53 (F := Ideal) a0 a1 a2 a3 a4 a5 a6 a7 a8 a9 a10 (ix2 n j) := by
  rw [Cert.ReferenceIdeal.RefValue.out_apply]
  unfold Cert.Spec.nodeOut
  refine lnRelu_congr (fun j' => ?_) (fun j' => rowOf_apply a9 j') (fun j' => rowOf_apply a10 j') j
  refine congrArg₂ (· + ·) (Finset.sum_congr rfl fun k _ => ?_) (rowOf_apply a8 j')
  rw [linT_apply, agg_eq_add]

end Arrays

/-! ## From the launch memory -/

open Cert.KernelIdeal Cert.KernelIdeal.Gen in
/-- The kernel's result array after the run is the reference's result term of the same arguments. -/
theorem kernel_eq_ref (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W4 m ρ c (Proc.devRef .tc Cert.KernelIdeal.main_v25)
      = val_main_v53 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  have h6 : W4 m ρ c (Proc.devRef .tc (Pipeline.arrRef spec1 6)) = (dat1 (V3 m ρ) c).arrAt 6 cfg1.N := W4_arr m ρ c 6
  refine h6.trans ?_
  rw [Cert.KernelIdeal.Region1.arr6 (V3 m ρ) c, entry1_v20, entry1_arg3, entry1_v21, entry1_v22, entry1_v23, entry1_v24,
    Cert.KernelIdeal.Region0.arr5 (V1 m ρ) c, entry0_v10, entry0_v11, entry0_v13, entry0_v15, entry0_v16]
  funext i
  obtain ⟨n, j, rfl⟩ : ∃ (n : Fin 50000) (j : Fin 128), i = ix2 n j := ⟨i 0, i 1, eq_ix2 i⟩
  exact node_eq _ _ _ _ _ _ _ _ _ _ _ n j

end Cert.Bridge

end
-- ==== Proof.lean ====
/-
  The certificate of a message-passing graph layer: a gather of source-node rows, a per-edge affine map with
  rectification, a scatter-add into destination nodes with each node's boundary row added, then a dense layer, layer
  norm, scale, shift and rectification per node.  The kernel program runs the per-edge map and the per-node tail as two
  tiled kernels and adds the boundary rows inside the second one; the reference stacks the boundary rows under the
  messages and scatters them with the indices 0, 1, 2, ….  Over the extended reals the two results are the same array,
  entry by entry (Proof/Bridge.lean): only the regrouping of finite sums is used, so the finiteness of the inputs is
  never opened.  The three frames are the generated runs; nothing was rewritten by the idealization.
-/
import proofs.«120088_j32727650796180_1_alg».proof.Defs
import proofs.«120088_j32727650796180_1_alg».proof.Proof.Gen.Kernel
import proofs.«120088_j32727650796180_1_alg».proof.Proof.Gen.Kernel.Skeleton
import proofs.«120088_j32727650796180_1_alg».proof.Proof.Gen.Kernel.Launch
import proofs.«120088_j32727650796180_1_alg».proof.Proof.Gen.Kernel.Points
import proofs.«120088_j32727650796180_1_alg».proof.Proof.Gen.Kernel.Frame
import proofs.«120088_j32727650796180_1_alg».proof.Proof.Gen.KernelIdeal
import proofs.«120088_j32727650796180_1_alg».proof.Proof.Gen.KernelIdeal.Skeleton
import proofs.«120088_j32727650796180_1_alg».proof.Proof.Gen.KernelIdeal.Launch
import proofs.«120088_j32727650796180_1_alg».proof.Proof.Gen.KernelIdeal.Points
import proofs.«120088_j32727650796180_1_alg».proof.Proof.Gen.KernelIdeal.Frame
import proofs.«120088_j32727650796180_1_alg».proof.Proof.Gen.ReferenceIdeal
import proofs.«120088_j32727650796180_1_alg».proof.Proof.Gen.Pre_finite_inputs
import proofs.«120088_j32727650796180_1_alg».proof.Proof.Gen.ReferenceIdeal.Run
import proofs.«120088_j32727650796180_1_alg».proof.Proof.Gen.ReferenceIdeal.Read
import proofs.«120088_j32727650796180_1_alg».proof.Proof.KernelRun
import proofs.«120088_j32727650796180_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_k : @Cert.frame_Kernel Cert.Kernel.Gen.facts Cert.Pre_finite_inputs.Gen.facts :=
  fun m ρ _ => Cert.Kernel.Gen.frame m ρ

/-- So does the kernel program read at the extended reals. -/
theorem frame_ki : @Cert.frame_KernelIdeal Cert.KernelIdeal.Gen.facts Cert.Pre_finite_inputs.Gen.facts :=
  fun m ρ _ => Cert.KernelIdeal.Gen.frame m ρ

/-- The reference is a host program: its run, with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both programs end with the same result array: the kernel's run names its
    result, the reference's run names its own, and the two are one array. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W4 m ρ c (Proc.devRef .tc Cert.KernelIdeal.main_v25), Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]
  exact (Cert.Bridge.kernel_eq_ref m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
